-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x256 : Shape := ⟨3, ![8, 2048, 256]⟩
abbrev S8x2048x2048 : Shape := ⟨3, ![8, 2048, 2048]⟩
abbrev S256x256 : Shape := ⟨2, ![256, 256]⟩
abbrev S256 : Shape := ⟨1, ![256]⟩
abbrev S_ : Shape := ⟨0, ![]⟩

class Facts : Prop where
  bcast_S_S8x2048x256 : S_.BroadcastsInDim S8x2048x256 (![] : Fin 0 → Fin S8x2048x256.rank)
  reducesTo_S8x2048x256_S_d0_1_2 : S8x2048x256.ReducesTo [0, 1, 2] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_arg5 : FVec F S256 .f32) (main_arg6 : FVec F S256x256 .f32) (main_arg7 : FVec F S256 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg5
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x256 .f32 := Host.absf main_arg6
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg7
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  main_v33

def fn {F : FTy → Type} [FloatOps F] (main_arg0 : FVec F S8x2048x256 .f32) (main_arg1 : IVec S8x2048x2048 32) (main_arg2 : FVec F S256x256 .f32) (main_arg3 : FVec F S256 .f32) (main_arg4 : FVec F S256x256 .f32) (main_arg5 : FVec F S256 .f32) (main_arg6 : FVec F S256x256 .f32) (main_arg7 : FVec F S256 .f32) : IVec S_ 1 :=
  let main_v0 : FVec F S8x2048x256 .f32 := Host.absf main_arg0
  let main_cst : FVec F S_ .f32 := constant S_ .f32 0x7F800000#32
  let main_v1 : FVec F S8x2048x256 .f32 := broadcastInDim S8x2048x256 ![] bcast_S_S8x2048x256 main_cst
  let main_v2 : IVec S8x2048x256 1 := cmpf .olt main_v0 main_v1
  let main_c : IVec S_ 1 := constantI S_ 1 1#1
  let main_v3 : IVec S_ 1 := (fun x v => Host.reduce IntOp.andi x v reducesTo_S8x2048x256_S_d0_1_2 h_S_) main_v2 main_c
  let main_v4 : FVec F S256x256 .f32 := Host.absf main_arg2
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg4
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg5 main_arg6 main_arg7 main_v13 main_v16
-- ==== Kernel.lean ====
abbrev S8x2048x256 : Shape := ⟨3, ![8, 2048, 256]⟩
abbrev S8x2048x2048 : Shape := ⟨3, ![8, 2048, 2048]⟩
abbrev S256x256 : Shape := ⟨2, ![256, 256]⟩
abbrev S256 : Shape := ⟨1, ![256]⟩
abbrev S1x256 : Shape := ⟨2, ![1, 256]⟩
abbrev S1x2048x256 : Shape := ⟨3, ![1, 2048, 256]⟩
abbrev S1x512x2048 : Shape := ⟨3, ![1, 512, 2048]⟩
abbrev S1x512x256 : Shape := ⟨3, ![1, 512, 256]⟩
abbrev S2048x256 : Shape := ⟨2, ![2048, 256]⟩
abbrev S512x256 : Shape := ⟨2, ![512, 256]⟩
abbrev S512x2048 : Shape := ⟨2, ![512, 2048]⟩
abbrev S512 : Shape := ⟨1, ![512]⟩
abbrev S512x1 : Shape := ⟨2, ![512, 1]⟩

abbrev nBuf : Space → Nat
  | .hbm => 12
  | .vmem => 14
  | .smem => 0
  | _ => 0

abbrev bufTy : (tb : Table) → Fin (tcTables nBuf tb) → BufTy
  | .hbm, ⟨0, _⟩ => ⟨S8x2048x256, .f32⟩
  | .hbm, ⟨1, _⟩ => ⟨S8x2048x2048, .i32⟩
  | .hbm, ⟨2, _⟩ => ⟨S256x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S1x256, .f32⟩
  | .hbm, ⟨9, _⟩ => ⟨S1x256, .f32⟩
  | .hbm, ⟨10, _⟩ => ⟨S1x256, .f32⟩
  | .hbm, ⟨11, _⟩ => ⟨S8x2048x256, .f32⟩
  | .local _ .vmem, ⟨0, _⟩ => ⟨S1x2048x256, .f32⟩
  | .local _ .vmem, ⟨1, _⟩ => ⟨S1x2048x256, .f32⟩
  | .local _ .vmem, ⟨2, _⟩ => ⟨S256x256, .f32⟩
  | .local _ .vmem, ⟨3, _⟩ => ⟨S1x256, .f32⟩
  | .local _ .vmem, ⟨4, _⟩ => ⟨S256x256, .f32⟩
  | .local _ .vmem, ⟨5, _⟩ => ⟨S1x256, .f32⟩
  | .local _ .vmem, ⟨6, _⟩ => ⟨S256x256, .f32⟩
  | .local _ .vmem, ⟨7, _⟩ => ⟨S1x256, .f32⟩
  | .local _ .vmem, ⟨8, _⟩ => ⟨S1x512x2048, .i32⟩
  | .local _ .vmem, ⟨9, _⟩ => ⟨S1x512x2048, .i32⟩
  | .local _ .vmem, ⟨10, _⟩ => ⟨S1x512x256, .f32⟩
  | .local _ .vmem, ⟨11, _⟩ => ⟨S1x512x256, .f32⟩
  | .local _ .vmem, ⟨12, _⟩ => ⟨S2048x256, .bf16⟩
  | .local _ .vmem, ⟨13, _⟩ => ⟨S2048x256, .bf16⟩
  | _, _ => ⟨S8x2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨2, ![8, 4], ![false, false]⟩

def k0_mult1 (i : grid0.Coords) : BitVec 32 :=
  let arg1 : BitVec 32 := BitVec.ofNat 32 (i 1).val
  let c512_i32 : BitVec 32 := 512#32
  let v3 : BitVec 32 := Scalar.muli arg1 c512_i32
  v3
def k0_off1 (i : grid0.Coords) : Fin 3 → Nat :=
  let c0 : Index := 0#32
  let arg1 : BitVec 32 := BitVec.ofNat 32 (i 1).val
  let c512_i32 : BitVec 32 := 512#32
  let v3 : BitVec 32 := Scalar.muli arg1 c512_i32
  let v4 : BitVec 32 := v3
  let v5 : Index := Scalar.indexCast v4
  let c0_1 : Index := 0#32
  ![0, v5.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x512x2048 .i32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

class Facts₀ : Prop where
  shapeCasts_S256_S1x256 : S256.ShapeCasts S1x256
  inb_S1x2048x256_S1x2048x256_0_0_0 : ∀ a, (![0, 0, 0] : Fin 3 → Nat) a + S1x2048x256.size a ≤ S1x2048x256.size a
  h_S1x2048x256 : 0 < S1x2048x256.numel
  shapeCasts_S1x2048x256_S2048x256 : S1x2048x256.ShapeCasts S2048x256
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2048x256 : S1x256.Broadcasts S2048x256
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  packedbf16_S2048x256_S2048x256_0_0 : (Rect.unit (s := S2048x256) ![0, 0] S2048x256.size inb_S2048x256_S2048x256_0_0).PackedRows (EltTy.packing .bf16)
  h_S1x512x256 : 0 < S1x512x256.numel
  shapeCasts_S1x512x256_S512x256 : S1x512x256.ShapeCasts S512x256
  broadcasts_S1x256_S512x256 : S1x256.Broadcasts S512x256
  inb_S1x512x2048_S1x512x2048_0_0_0 : ∀ a, (![0, 0, 0] : Fin 3 → Nat) a + S1x512x2048.size a ≤ S1x512x2048.size a
  h_S1x512x2048 : 0 < S1x512x2048.numel
  shapeCasts_S1x512x2048_S512x2048 : S1x512x2048.ShapeCasts S512x2048
  reduces_S512x2048_S512 : S512x2048.Reduces [1] S512
  shapeCasts_S512_S512x1 : S512.ShapeCasts S512x1
  broadcasts_S512x1_S512x256 : S512x1.Broadcasts S512x256
  inb_S1x512x256_S1x512x256_0_0_0 : ∀ a, (![0, 0, 0] : Fin 3 → Nat) a + S1x512x256.size a ≤ S1x512x256.size a
  shapeCasts_S512x256_S1x512x256 : S512x256.ShapeCasts S1x512x256
  dot_S2048x256_S256x256_S2048x256_1_0_0_1_n_n_wf : DotDims.WF S2048x256 S256x256 S2048x256 [1] [0] [0] [1] [] []
  dot_S512x256_S256x256_S512x256_1_0_0_1_n_n_wf : DotDims.WF S512x256 S256x256 S512x256 [1] [0] [0] [1] [] []
  dot_S512x256_S2048x256_S512x2048_1_1_0_0_n_n_wf : DotDims.WF S512x256 S2048x256 S512x2048 [1] [1] [0] [0] [] []
  dot_S512x2048_S2048x256_S512x256_1_0_0_1_n_n_wf : DotDims.WF S512x2048 S2048x256 S512x256 [1] [0] [0] [1] [] []
  hrank0 : 0 < grid0.rank
  k0_mult1_dvd : ∀ i : grid0.Coords, 512 ∣ (k0_mult1 i).toNat
  k0_off1_inb : ∀ i : grid0.Coords, ∀ a, (k0_off1 i) a + S1x512x256.size a ≤ S1x2048x256.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x256.size a ≤ S8x2048x256.size a
  hwx0_0 : ∀ i : grid0.Coords, EltTy.bits .f32 = 32 ∨ (Rect.block (s := S8x2048x256) S1x2048x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .f32 = 32 ∨ (Rect.block (s := S256x256) S256x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x256.size a ≤ S256x256.size a
  hwx0_5 : ∀ i : grid0.Coords, EltTy.bits .f32 = 32 ∨ (Rect.block (s := S256x256) S256x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x256.size a
  hwx0_6 : ∀ i : grid0.Coords, EltTy.bits .f32 = 32 ∨ (Rect.block (s := S1x256) S1x256.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x512x2048.size a ≤ S8x2048x2048.size a
  hwx0_7 : ∀ i : grid0.Coords, EltTy.bits .i32 = 32 ∨ (Rect.block (s := S8x2048x2048) S1x512x2048.size (cc0_transform_7 i) (hinb0_7 i)).WholeWords (EltTy.packing .i32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x512x256.size a ≤ S8x2048x256.size a
  hwx0_8 : ∀ i : grid0.Coords, EltTy.bits .f32 = 32 ∨ (Rect.block (s := S8x2048x256) S1x512x256.size (cc0_transform_8 i) (hinb0_8 i)).WholeWords (EltTy.packing .f32)

variable [Facts₀]

def dot_S2048x256_S256x256_S2048x256_1_0_0_1_n_n : DotDims S2048x256 S256x256 S2048x256 where
  lhsContracting := [1]
  rhsContracting := [0]
  lhsNonContracting := [0]
  rhsNonContracting := [1]
  lhsBatch := []
  rhsBatch := []
  wf := dot_S2048x256_S256x256_S2048x256_1_0_0_1_n_n_wf
def dot_S512x256_S256x256_S512x256_1_0_0_1_n_n : DotDims S512x256 S256x256 S512x256 where
  lhsContracting := [1]
  rhsContracting := [0]
  lhsNonContracting := [0]
  rhsNonContracting := [1]
  lhsBatch := []
  rhsBatch := []
  wf := dot_S512x256_S256x256_S512x256_1_0_0_1_n_n_wf
def dot_S512x256_S2048x256_S512x2048_1_1_0_0_n_n : DotDims S512x256 S2048x256 S512x2048 where
  lhsContracting := [1]
  rhsContracting := [1]
  lhsNonContracting := [0]
  rhsNonContracting := [0]
  lhsBatch := []
  rhsBatch := []
  wf := dot_S512x256_S2048x256_S512x2048_1_1_0_0_n_n_wf
def dot_S512x2048_S2048x256_S512x256_1_0_0_1_n_n : DotDims S512x2048 S2048x256 S512x256 where
  lhsContracting := [1]
  rhsContracting := [0]
  lhsNonContracting := [0]
  rhsNonContracting := [1]
  lhsBatch := []
  rhsBatch := []
  wf := dot_S512x2048_S2048x256_S512x256_1_0_0_1_n_n_wf

abbrev win0_0 : Pipeline.Window sig grid0 :=
  Pipeline.Window.ofSpec (Memref.whole main_arg0) S1x2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S256x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S1x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg1) S1x512x2048.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v3) S1x512x256.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S8x2048x256 : Shape := ⟨3, ![8, 2048, 256]⟩
abbrev S8x2048x2048 : Shape := ⟨3, ![8, 2048, 2048]⟩
abbrev S256x256 : Shape := ⟨2, ![256, 256]⟩
abbrev S256 : Shape := ⟨1, ![256]⟩
abbrev S1x1x256 : Shape := ⟨3, ![1, 1, 256]⟩
abbrev S_ : Shape := ⟨0, ![]⟩
abbrev S8x2048 : Shape := ⟨2, ![8, 2048]⟩
abbrev S8x2048x1 : Shape := ⟨3, ![8, 2048, 1]⟩

abbrev nBuf : Space → Nat
  | .hbm => 46
  | .vmem => 0
  | .smem => 0
  | _ => 0

abbrev bufTy : (tb : Table) → Fin (tcTables nBuf tb) → BufTy
  | .hbm, ⟨0, _⟩ => ⟨S8x2048x256, .f32⟩
  | .hbm, ⟨1, _⟩ => ⟨S8x2048x2048, .i32⟩
  | .hbm, ⟨2, _⟩ => ⟨S256x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S8x2048x256, .f32⟩
  | .hbm, ⟨9, _⟩ => ⟨S1x1x256, .f32⟩
  | .hbm, ⟨10, _⟩ => ⟨S8x2048x256, .f32⟩
  | .hbm, ⟨11, _⟩ => ⟨S8x2048x256, .f32⟩
  | .hbm, ⟨12, _⟩ => ⟨S8x2048x256, .f32⟩
  | .hbm, ⟨13, _⟩ => ⟨S1x1x256, .f32⟩
  | .hbm, ⟨14, _⟩ => ⟨S8x2048x256, .f32⟩
  | .hbm, ⟨15, _⟩ => ⟨S8x2048x256, .f32⟩
  | .hbm, ⟨16, _⟩ => ⟨S8x2048x256, .f32⟩
  | .hbm, ⟨17, _⟩ => ⟨S1x1x256, .f32⟩
  | .hbm, ⟨18, _⟩ => ⟨S8x2048x256, .f32⟩
  | .hbm, ⟨19, _⟩ => ⟨S8x2048x256, .f32⟩
  | .hbm, ⟨20, _⟩ => ⟨S8x2048x2048, .f32⟩
  | .hbm, ⟨21, _⟩ => ⟨S_, .f32⟩
  | .hbm, ⟨22, _⟩ => ⟨S_, .f32⟩
  | .hbm, ⟨23, _⟩ => ⟨S8x2048x2048, .f32⟩
  | .hbm, ⟨24, _⟩ => ⟨S8x2048x2048, .f32⟩
  | .hbm, ⟨25, _⟩ => ⟨S_, .i32⟩
  | .hbm, ⟨26, _⟩ => ⟨S8x2048x2048, .i32⟩
  | .hbm, ⟨27, _⟩ => ⟨S8x2048x2048, .i1⟩
  | .hbm, ⟨28, _⟩ => ⟨S_, .f32⟩
  | .hbm, ⟨29, _⟩ => ⟨S8x2048x2048, .f32⟩
  | .hbm, ⟨30, _⟩ => ⟨S8x2048x2048, .f32⟩
  | .hbm, ⟨31, _⟩ => ⟨S_, .f32⟩
  | .hbm, ⟨32, _⟩ => ⟨S8x2048, .f32⟩
  | .hbm, ⟨33, _⟩ => ⟨S_, .f32⟩
  | .hbm, ⟨34, _⟩ => ⟨S8x2048, .f32⟩
  | .hbm, ⟨35, _⟩ => ⟨S8x2048, .f32⟩
  | .hbm, ⟨36, _⟩ => ⟨S8x2048x1, .f32⟩
  | .hbm, ⟨37, _⟩ => ⟨S8x2048x2048, .f32⟩
  | .hbm, ⟨38, _⟩ => ⟨S8x2048x2048, .f32⟩
  | .hbm, ⟨39, _⟩ => ⟨S8x2048x2048, .f32⟩
  | .hbm, ⟨40, _⟩ => ⟨S_, .f32⟩
  | .hbm, ⟨41, _⟩ => ⟨S8x2048, .f32⟩
  | .hbm, ⟨42, _⟩ => ⟨S8x2048x1, .f32⟩
  | .hbm, ⟨43, _⟩ => ⟨S8x2048x2048, .f32⟩
  | .hbm, ⟨44, _⟩ => ⟨S8x2048x2048, .f32⟩
  | .hbm, ⟨45, _⟩ => ⟨S8x2048x256, .f32⟩
  | _, _ => ⟨S8x2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_c : Ref sig .tc := ⟨.hbm, 25, rfl⟩
abbrev main_v16 : Ref sig .tc := ⟨.hbm, 26, rfl⟩
abbrev main_v17 : Ref sig .tc := ⟨.hbm, 27, rfl⟩
abbrev main_cst_0 : Ref sig .tc := ⟨.hbm, 28, rfl⟩
abbrev main_call0_v0 : Ref sig .tc := ⟨.hbm, 29, rfl⟩
abbrev main_v18 : Ref sig .tc := ⟨.hbm, 30, rfl⟩
abbrev main_cst_1 : Ref sig .tc := ⟨.hbm, 31, rfl⟩
abbrev main_v19 : Ref sig .tc := ⟨.hbm, 32, rfl⟩
abbrev main_cst_2 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_3 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩

abbrev nD : Nat := 1
abbrev τ : Topo := Topo.v7x

variable {F : FTy → Type} [FloatOps F]

class Facts₀ : Prop where
  bcast_S256_S1x1x256_2 : S256.BroadcastsInDim S1x1x256 (![2] : Fin 1 → Fin S1x1x256.rank)
  bcast_S1x1x256_S8x2048x256_0_1_2 : S1x1x256.BroadcastsInDim S8x2048x256 (![0, 1, 2] : Fin 3 → Fin S8x2048x256.rank)
  bcast_S_S8x2048x2048 : S_.BroadcastsInDim S8x2048x2048 (![] : Fin 0 → Fin S8x2048x2048.rank)
  reducesTo_S8x2048x2048_S8x2048_d2 : S8x2048x2048.ReducesTo [2] S8x2048
  h_S_ : 0 < S_.numel
  bcast_S_S8x2048 : S_.BroadcastsInDim S8x2048 (![] : Fin 0 → Fin S8x2048.rank)
  bcast_S8x2048_S8x2048x1_0_1 : S8x2048.BroadcastsInDim S8x2048x1 (![0, 1] : Fin 2 → Fin S8x2048x1.rank)
  bcast_S8x2048x1_S8x2048x2048_0_1_2 : S8x2048x1.BroadcastsInDim S8x2048x2048 (![0, 1, 2] : Fin 3 → Fin S8x2048x2048.rank)
  dot_S8x2048x256_S256x256_S8x2048x256_2_0_01_1_n_n_wf : DotDims.WF S8x2048x256 S256x256 S8x2048x256 [2] [0] [0, 1] [1] [] []
  dot_S8x2048x256_S8x2048x256_S8x2048x2048_2_2_1_1_0_0_wf : DotDims.WF S8x2048x256 S8x2048x256 S8x2048x2048 [2] [2] [1] [1] [0] [0]
  dot_S8x2048x2048_S8x2048x256_S8x2048x256_2_1_1_2_0_0_wf : DotDims.WF S8x2048x2048 S8x2048x256 S8x2048x256 [2] [1] [1] [2] [0] [0]

variable [Facts₀]

def dot_S8x2048x256_S256x256_S8x2048x256_2_0_01_1_n_n : DotDims S8x2048x256 S256x256 S8x2048x256 where
  lhsContracting := [2]
  rhsContracting := [0]
  lhsNonContracting := [0, 1]
  rhsNonContracting := [1]
  lhsBatch := []
  rhsBatch := []
  wf := dot_S8x2048x256_S256x256_S8x2048x256_2_0_01_1_n_n_wf
def dot_S8x2048x256_S8x2048x256_S8x2048x2048_2_2_1_1_0_0 : DotDims S8x2048x256 S8x2048x256 S8x2048x2048 where
  lhsContracting := [2]
  rhsContracting := [2]
  lhsNonContracting := [1]
  rhsNonContracting := [1]
  lhsBatch := [0]
  rhsBatch := [0]
  wf := dot_S8x2048x256_S8x2048x256_S8x2048x2048_2_2_1_1_0_0_wf
def dot_S8x2048x2048_S8x2048x256_S8x2048x256_2_1_1_2_0_0 : DotDims S8x2048x2048 S8x2048x256 S8x2048x256 where
  lhsContracting := [2]
  rhsContracting := [1]
  lhsNonContracting := [1]
  rhsNonContracting := [2]
  lhsBatch := [0]
  rhsBatch := [0]
  wf := dot_S8x2048x2048_S8x2048x256_S8x2048x256_2_1_1_2_0_0_wf

class Facts : Prop extends Facts₀ where

variable [Facts]
-- ==== Proof.Pieces.lean ====
/-
  What one run of the kernel body leaves in its buffers, as values.

  At the first query tile of a batch the body stores the key and value projections of the whole activation block into
  the two scratch buffers and then, like at every other tile, computes the output tile from the query rows (the tile's
  512 rows of the activation block), the query weights and bias, the two scratch buffers and the mask tile. Each
  buffer is written by one store covering it, so what it holds afterwards is that store's value; a scratch buffer
  read after its store reads the stored value.
-/
import proofs.«409204_j50216757625374_3_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.Attn.K

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- The query rows of a tile: the 512 rows of the activation block `x0` starting at the tile's first row. -/
abbrev qrows (i : grid0.Coords) (x0 : Vec F S1x2048x256 .f32) : Vec F S1x512x256 .f32 :=
  View.ld x0 (Rect.unit (s := S1x2048x256) (k0_off1 i) S1x512x256.size (k0_off1_inb i))

/-- First tile of a batch: the key scratch ends at the key projection of the activation block. -/
theorem scratchA_key (c : Dev nD) (i : grid0.Coords) (arg2 : Memref sig .tc .vmem S1x2048x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S256x256 .f32) (harg5 : arg5.IsWhole) (arg6 : Memref sig .tc .vmem S1x256 .f32) (harg6 : arg6.IsWhole) (arg7 : Memref sig .tc .vmem S256x256 .f32) (harg7 : arg7.IsWhole) (arg8 : Memref sig .tc .vmem S1x256 .f32) (harg8 : arg8.IsWhole) (arg9 : Memref sig .tc .vmem S1x512x2048 .i32) (harg9 : arg9.IsWhole) (arg10 : Memref sig .tc .vmem S1x512x256 .f32) (harg10 : arg10.IsWhole) (arg11 : Memref sig .tc .vmem S2048x256 .bf16) (harg11 : arg11.IsWhole) (arg12 : Memref sig .tc .vmem S2048x256 .bf16) (harg12 : arg12.IsWhole) (hc0 : cond0_0 i) (x0 : Vec F S1x2048x256 .f32) (x1 : Vec F S256x256 .f32) (x2 : Vec F S1x256 .f32) (x3 : Vec F S256x256 .f32) (x4 : Vec F S1x256 .f32) (x5 : Vec F S256x256 .f32) (x6 : Vec F S1x256 .f32) (x7 : Vec F S1x512x2048 .i32) :
    sout0_A_0 c i arg2 harg2 arg3 harg3 arg4 harg4 arg5 harg5 arg6 harg6 arg7 harg7 arg8 harg8 arg9 harg9 arg10 harg10 arg11 harg11 arg12 harg12 hc0 x0 x1 x2 x3 x4 x5 x6 x7 = k0_pay3 x0 x3 x4 := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 hc0 x0 x1 x2 x3 x4 x5 x6 x7)]
  unfold kernelRun0_A
  dsimp only
  sl_unfold_words
  rw [View.canon_unit_zero hz2]
  simp only [View.readAt_eq_ld, harg2.read_unread, harg5.read_unread, harg6.read_unread, View.ld_unit_zero (S := S1x2048x256) hz3, View.ld_unit_zero (S := S256x256) hz2, View.ld_unit_zero (S := S1x256) hz2]

/-- First tile of a batch: the value scratch ends at the value projection of the activation block. -/
theorem scratchA_val (c : Dev nD) (i : grid0.Coords) (arg2 : Memref sig .tc .vmem S1x2048x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S256x256 .f32) (harg5 : arg5.IsWhole) (arg6 : Memref sig .tc .vmem S1x256 .f32) (harg6 : arg6.IsWhole) (arg7 : Memref sig .tc .vmem S256x256 .f32) (harg7 : arg7.IsWhole) (arg8 : Memref sig .tc .vmem S1x256 .f32) (harg8 : arg8.IsWhole) (arg9 : Memref sig .tc .vmem S1x512x2048 .i32) (harg9 : arg9.IsWhole) (arg10 : Memref sig .tc .vmem S1x512x256 .f32) (harg10 : arg10.IsWhole) (arg11 : Memref sig .tc .vmem S2048x256 .bf16) (harg11 : arg11.IsWhole) (arg12 : Memref sig .tc .vmem S2048x256 .bf16) (harg12 : arg12.IsWhole) (hc0 : cond0_0 i) (x0 : Vec F S1x2048x256 .f32) (x1 : Vec F S256x256 .f32) (x2 : Vec F S1x256 .f32) (x3 : Vec F S256x256 .f32) (x4 : Vec F S1x256 .f32) (x5 : Vec F S256x256 .f32) (x6 : Vec F S1x256 .f32) (x7 : Vec F S1x512x2048 .i32) :
    sout0_A_1 c i arg2 harg2 arg3 harg3 arg4 harg4 arg5 harg5 arg6 harg6 arg7 harg7 arg8 harg8 arg9 harg9 arg10 harg10 arg11 harg11 arg12 harg12 hc0 x0 x1 x2 x3 x4 x5 x6 x7 = k0_pay4 x0 x5 x6 := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 arg12 harg12 hc0 x0 x1 x2 x3 x4 x5 x6 x7)]
  unfold kernelRun0_A
  dsimp only
  sl_unfold_words
  rw [View.canon_unit_zero hz2]
  simp only [View.readAt_eq_ld, harg2.read_unread, harg7.read_unread, harg8.read_unread, View.ld_unit_zero (S := S1x2048x256) hz3, View.ld_unit_zero (S := S256x256) hz2, View.ld_unit_zero (S := S1x256) hz2]

/-- A later tile of a batch: the output tile is the quotient of the weighted value sum by the weight sum, computed
    from the query rows against what the two scratch buffers hold (`xs0`, `xs1`). -/
theorem outB (c : Dev nD) (i : grid0.Coords) (arg2 : Memref sig .tc .vmem S1x2048x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S256x256 .f32) (harg5 : arg5.IsWhole) (arg6 : Memref sig .tc .vmem S1x256 .f32) (harg6 : arg6.IsWhole) (arg7 : Memref sig .tc .vmem S256x256 .f32) (harg7 : arg7.IsWhole) (arg8 : Memref sig .tc .vmem S1x256 .f32) (harg8 : arg8.IsWhole) (arg9 : Memref sig .tc .vmem S1x512x2048 .i32) (harg9 : arg9.IsWhole) (arg10 : Memref sig .tc .vmem S1x512x256 .f32) (harg10 : arg10.IsWhole) (arg11 : Memref sig .tc .vmem S2048x256 .bf16) (harg11 : arg11.IsWhole) (arg12 : Memref sig .tc .vmem S2048x256 .bf16) (harg12 : arg12.IsWhole) (hc0 : ¬cond0_0 i) (x0 : Vec F S1x2048x256 .f32) (x1 : Vec F S256x256 .f32) (x2 : Vec F S1x256 .f32) (x3 : Vec F S256x256 .f32) (x4 : Vec F S1x256 .f32) (x5 : Vec F S256x256 .f32) (x6 : Vec F S1x256 .f32) (x7 : Vec F S1x512x2048 .i32) (xs0 xs1 : Vec F S2048x256 .bf16) :
    out0_B_8 c i arg2 harg2 arg3 harg3 arg4 harg4 arg5 harg5 arg6 harg6 arg7 harg7 arg8 harg8 arg9 harg9 arg10 harg10 arg11 harg11 arg12 harg12 hc0 x0 x1 x2 x3 x4 x5 x6 x7 xs0 xs1
      = k0_pay1 (k0_pay6 (qrows i x0) x1 x2 xs0 xs1 x7) (k0_pay7 (qrows i x0) x1 x2 xs0 x7) := by
  unfold out0_B_8
  rw [View.read_writes_eq_canon _ _ _ (cover0_B_8 c i arg2 harg2 arg3 harg3 arg4 harg4 arg5 harg5 arg6 harg6 arg7 harg7 arg8 harg8 arg9 harg9 arg10 harg10 arg11 harg11 arg12 harg12 hc0 x0 x1 x2 x3 x4 x5 x6 x7 xs0 xs1)]
  unfold kernelRun0_B
  dsimp only
  sl_unfold_words
  rw [View.canon_unit_zero hz3]
  simp only [View.readAt_eq_ld, harg2.read_unread, harg3.read_unread, harg4.read_unread, harg9.read_unread, harg11.read_unread, harg12.read_unread, View.ld_unit_zero (S := S256x256) hz2, View.ld_unit_zero (S := S1x256) hz2, View.ld_unit_zero (S := S2048x256) hz2, View.ld_unit_zero (S := S1x512x2048) hz3]
  rfl

/-- The first tile of a batch: the same quotient, against the projections the body has just stored. -/
theorem outA (c : Dev nD) (i : grid0.Coords) (arg2 : Memref sig .tc .vmem S1x2048x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S256x256 .f32) (harg5 : arg5.IsWhole) (arg6 : Memref sig .tc .vmem S1x256 .f32) (harg6 : arg6.IsWhole) (arg7 : Memref sig .tc .vmem S256x256 .f32) (harg7 : arg7.IsWhole) (arg8 : Memref sig .tc .vmem S1x256 .f32) (harg8 : arg8.IsWhole) (arg9 : Memref sig .tc .vmem S1x512x2048 .i32) (harg9 : arg9.IsWhole) (arg10 : Memref sig .tc .vmem S1x512x256 .f32) (harg10 : arg10.IsWhole) (arg11 : Memref sig .tc .vmem S2048x256 .bf16) (harg11 : arg11.IsWhole) (arg12 : Memref sig .tc .vmem S2048x256 .bf16) (harg12 : arg12.IsWhole) (hc0 : cond0_0 i) (x0 : Vec F S1x2048x256 .f32) (x1 : Vec F S256x256 .f32) (x2 : Vec F S1x256 .f32) (x3 : Vec F S256x256 .f32) (x4 : Vec F S1x256 .f32) (x5 : Vec F S256x256 .f32) (x6 : Vec F S1x256 .f32) (x7 : Vec F S1x512x2048 .i32) :
    out0_A_8 c i arg2 harg2 arg3 harg3 arg4 harg4 arg5 harg5 arg6 harg6 arg7 harg7 arg8 harg8 arg9 harg9 arg10 harg10 arg11 harg11 arg12 harg12 hc0 x0 x1 x2 x3 x4 x5 x6 x7
      = k0_pay1 (k0_pay6 (qrows i x0) x1 x2 (k0_pay3 x0 x3 x4) (k0_pay4 x0 x5 x6) x7) (k0_pay7 (qrows i x0) x1 x2 (k0_pay3 x0 x3 x4) x7) := by
  unfold out0_A_8
  rw [View.read_writes_eq_canon _ _ _ (cover0_A_8 c i arg2 harg2 arg3 harg3 arg4 harg4 arg5 harg5 arg6 harg6 arg7 harg7 arg8 harg8 arg9 harg9 arg10 harg10 arg11 harg11 arg12 harg12 hc0 x0 x1 x2 x3 x4 x5 x6 x7)]
  unfold kernelRun0_A
  dsimp only
  sl_unfold_words
  rw [View.canon_unit_zero hz3]
  simp only [View.readAt_eq_ld, harg2.read_unread, harg3.read_unread, harg4.read_unread, harg5.read_unread, harg6.read_unread, harg7.read_unread, harg8.read_unread, harg9.read_unread, View.readCov_unit_zero (S := S2048x256) _ hz2, View.ld_unit_zero (S := S1x2048x256) hz3, View.ld_unit_zero (S := S256x256) hz2, View.ld_unit_zero (S := S1x256) hz2, View.ld_unit_zero (S := S2048x256) hz2, View.ld_unit_zero (S := S1x512x2048) hz3]
  rfl

end Cert.Attn.K

end
-- ==== Proof.Blocks.lean ====
/-
  The blocks the pipeline hands the body at a grid point, as parts of the arrays.

  Grid point t = 4 b + j is query tile j of batch b. Its activation block is the whole [2048, 256] slab of batch b,
  its mask and output blocks are rows 512 j … 512 j + 511 of batch b, and the six weight and bias blocks are the whole
  arrays at every point. The relations between a point and its block indices are decided once over the 32 points.
-/
import proofs.«409204_j50216757625374_3_alg».proof.Proof.Pieces
import Idealize.ShloMosaic.Lib.ValueIdx

noncomputable section

open Idealize.ShloMosaic Idealize.ShloMosaic.TcCoe Idealize.SL.Sem Idealize.ShloMosaic.ValueIdx
open Idealize.ShloMosaic.Pipeline (Dat)

namespace Cert.Attn.K

open Cert.KernelIdeal Cert.KernelIdeal.Gen

variable {F : FTy → Type} [FloatOps F]
variable (m : (ℓ : Loc nD τ sig) → Buf (Elt F) ℓ)

theorem div4_lt {n : ℕ} (hn : n < cfg0.N) : n / 4 < 8 := by
  have hN : cfg0.N = 32 := N_0
  omega

theorem row_lt {n : ℕ} (p : Fin 512) : (n % 4) * 512 + p.val < 2048 := by
  have := p.isLt
  have := Nat.mod_lt n (by decide : 0 < 4)
  omega

/-- The printed index maps, decided over the grid: batch and tile of a point, and the first query row of its tile. -/
theorem idx_facts : ∀ t : Fin cfg0.N,
    (win0_0.index t (0 : Fin 3) = t.val / 4 ∧ win0_0.index t (1 : Fin 3) = 0 ∧ win0_0.index t (2 : Fin 3) = 0)
    ∧ (win0_7.index t (0 : Fin 3) = t.val / 4 ∧ win0_7.index t (1 : Fin 3) = t.val % 4 ∧ win0_7.index t (2 : Fin 3) = 0)
    ∧ (win0_8.index t (0 : Fin 3) = t.val / 4 ∧ win0_8.index t (1 : Fin 3) = t.val % 4 ∧ win0_8.index t (2 : Fin 3) = 0)
    ∧ (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (k0_off1 (grid0.coords t) (0 : Fin 3) = 0 ∧ k0_off1 (grid0.coords t) (1 : Fin 3) = (t.val % 4) * 512
        ∧ k0_off1 (grid0.coords t) (2 : Fin 3) = 0) :=
  (by decide +kernel : ∀ t : Fin grid0.N, _)

/-- Batch `b`'s slab of the activations, as a block. -/
def slab (x : S8x2048x256.Idx → Elt F .f32) (b : Fin 8) : Vec F S1x2048x256 .f32 :=
  fun y => x (ix3 b (y 1) (y 2))

/-- The activation block at point `t` is the slab of batch `t / 4`. -/
theorem blk_x (c : Dev nD) (t : Fin cfg0.N) :
    (iblk m c 0 t : Vec F S1x2048x256 .f32) = slab (m ((c : Thread nD τ).loc main_arg0)) ⟨t.val / 4, div4_lt t.isLt⟩ := by
  obtain ⟨⟨h0, h1, h2⟩, -⟩ := idx_facts t
  funext y
  unfold iblk slab
  rw [View.read_apply]
  show V m c main_arg0 _ = m (c.tc.loc main_arg0) _
  rw [V_main_arg0]
  congr 1
  funext a
  apply Fin.ext
  match a with
  | ⟨0, _⟩ => show win0_0.index t (0 : Fin 3) * 1 + 1 * (y 0).val = t.val / 4; rw [h0]; have hy0 : (y 0).val < 1 := (y 0).isLt; omega
  | ⟨1, _⟩ => show win0_0.index t (1 : Fin 3) * 2048 + 1 * (y 1).val = (y 1).val; rw [h1]; omega
  | ⟨2, _⟩ => show win0_0.index t (2 : Fin 3) * 256 + 1 * (y 2).val = (y 2).val; rw [h2]; omega

/-- The six weight and bias blocks are the arrays the region finds. -/
theorem blk_1 (c : Dev nD) (t : Fin cfg0.N) : (iblk m c 1 t : Vec F S256x256 .f32) = V m c main_arg2 := by
  obtain ⟨-, -, -, ⟨h0, h1⟩, -⟩ := idx_facts t
  funext y
  unfold iblk
  rw [View.read_apply]
  show V m c main_arg2 _ = V m c main_arg2 y
  congr 1
  funext a
  apply Fin.ext
  match a with
  | ⟨0, _⟩ => show win0_1.index t (0 : Fin 2) * 256 + 1 * (y 0).val = (y 0).val; rw [h0]; omega
  | ⟨1, _⟩ => show win0_1.index t (1 : Fin 2) * 256 + 1 * (y 1).val = (y 1).val; rw [h1]; omega

theorem blk_2 (c : Dev nD) (t : Fin cfg0.N) : (iblk m c 2 t : Vec F S1x256 .f32) = V m c main_v0 := by
  obtain ⟨-, -, -, -, ⟨h0, h1⟩, -⟩ := idx_facts t
  funext y
  unfold iblk
  rw [View.read_apply]
  show V m c main_v0 _ = V m c main_v0 y
  congr 1
  funext a
  apply Fin.ext
  match a with
  | ⟨0, _⟩ => show win0_2.index t (0 : Fin 2) * 1 + 1 * (y 0).val = (y 0).val; rw [h0]; omega
  | ⟨1, _⟩ => show win0_2.index t (1 : Fin 2) * 256 + 1 * (y 1).val = (y 1).val; rw [h1]; omega

theorem blk_3 (c : Dev nD) (t : Fin cfg0.N) : (iblk m c 3 t : Vec F S256x256 .f32) = V m c main_arg4 := by
  obtain ⟨-, -, -, -, -, ⟨h0, h1⟩, -⟩ := idx_facts t
  funext y
  unfold iblk
  rw [View.read_apply]
  show V m c main_arg4 _ = V m c main_arg4 y
  congr 1
  funext a
  apply Fin.ext
  match a with
  | ⟨0, _⟩ => show win0_3.index t (0 : Fin 2) * 256 + 1 * (y 0).val = (y 0).val; rw [h0]; omega
  | ⟨1, _⟩ => show win0_3.index t (1 : Fin 2) * 256 + 1 * (y 1).val = (y 1).val; rw [h1]; omega

theorem blk_4 (c : Dev nD) (t : Fin cfg0.N) : (iblk m c 4 t : Vec F S1x256 .f32) = V m c main_v1 := by
  obtain ⟨-, -, -, -, -, -, ⟨h0, h1⟩, -⟩ := idx_facts t
  funext y
  unfold iblk
  rw [View.read_apply]
  show V m c main_v1 _ = V m c main_v1 y
  congr 1
  funext a
  apply Fin.ext
  match a with
  | ⟨0, _⟩ => show win0_4.index t (0 : Fin 2) * 1 + 1 * (y 0).val = (y 0).val; rw [h0]; omega
  | ⟨1, _⟩ => show win0_4.index t (1 : Fin 2) * 256 + 1 * (y 1).val = (y 1).val; rw [h1]; omega

theorem blk_5 (c : Dev nD) (t : Fin cfg0.N) : (iblk m c 5 t : Vec F S256x256 .f32) = V m c main_arg6 := by
  obtain ⟨-, -, -, -, -, -, -, ⟨h0, h1⟩, -⟩ := idx_facts t
  funext y
  unfold iblk
  rw [View.read_apply]
  show V m c main_arg6 _ = V m c main_arg6 y
  congr 1
  funext a
  apply Fin.ext
  match a with
  | ⟨0, _⟩ => show win0_5.index t (0 : Fin 2) * 256 + 1 * (y 0).val = (y 0).val; rw [h0]; omega
  | ⟨1, _⟩ => show win0_5.index t (1 : Fin 2) * 256 + 1 * (y 1).val = (y 1).val; rw [h1]; omega

theorem blk_6 (c : Dev nD) (t : Fin cfg0.N) : (iblk m c 6 t : Vec F S1x256 .f32) = V m c main_v2 := by
  obtain ⟨-, -, -, -, -, -, -, -, ⟨h0, h1⟩, -⟩ := idx_facts t
  funext y
  unfold iblk
  rw [View.read_apply]
  show V m c main_v2 _ = V m c main_v2 y
  congr 1
  funext a
  apply Fin.ext
  match a with
  | ⟨0, _⟩ => show win0_6.index t (0 : Fin 2) * 1 + 1 * (y 0).val = (y 0).val; rw [h0]; omega
  | ⟨1, _⟩ => show win0_6.index t (1 : Fin 2) * 256 + 1 * (y 1).val = (y 1).val; rw [h1]; omega

/-- The mask block at point `t`, entry (p, k): row `512 (t % 4) + p` of batch `t / 4`. -/
theorem blk_mask_apply (c : Dev nD) (t : Fin cfg0.N) (p : Fin 512) (k : Fin 2048) :
    (iblk m c 7 t : Vec F S1x512x2048 .i32) (ix3 (0 : Fin 1) p k)
      = (m ((c : Thread nD τ).loc main_arg1) : S8x2048x2048.Idx → Elt F .i32)
          (ix3 ⟨t.val / 4, div4_lt t.isLt⟩ ⟨(t.val % 4) * 512 + p.val, row_lt p⟩ k) := by
  obtain ⟨-, ⟨h0, h1, h2⟩, -⟩ := idx_facts t
  unfold iblk
  rw [View.read_apply]
  show V m c main_arg1 _ = m (c.tc.loc main_arg1) _
  rw [V_main_arg1]
  congr 1
  funext a
  apply Fin.ext
  match a with
  | ⟨0, _⟩ => show win0_7.index t (0 : Fin 3) * 1 + 1 * 0 = t.val / 4; rw [h0]; omega
  | ⟨1, _⟩ => show win0_7.index t (1 : Fin 3) * 512 + 1 * p.val = (t.val % 4) * 512 + p.val; rw [h1]; omega
  | ⟨2, _⟩ => show win0_7.index t (2 : Fin 3) * 2048 + 1 * k.val = k.val; rw [h2]; omega

end Cert.Attn.K

end
-- ==== Proof.Tiles.lean ====
/-
  What the two scratch buffers and the output tile hold after each grid point.

  Within a batch the key and value projections are computed once, at the batch's first query tile, and kept: so after
  point t both scratch buffers hold the projections of the slab of batch t / 4 (an induction over the points: a first
  tile stores them, a later tile leaves what the point before left, and t - 1 is in the same batch). The output tile
  of point t is then the attention quotient of its query rows against those projections.
-/
import proofs.«409204_j50216757625374_3_alg».proof.Proof.Blocks

noncomputable section

open Idealize.ShloMosaic Idealize.ShloMosaic.TcCoe Idealize.SL.Sem Idealize.ShloMosaic.ValueIdx
open Idealize.ShloMosaic.Pipeline (Dat)

namespace Cert.Attn.K

open Cert.KernelIdeal Cert.KernelIdeal.Gen

variable {F : FTy → Type} [FloatOps F]
variable (m : (ℓ : Loc nD τ sig) → Buf (Elt F) ℓ)

/-- The key projection of batch `b`, as the body stores it. -/
def keys (c : Dev nD) (b : Fin 8) : Vec F S2048x256 .bf16 :=
  k0_pay3 (slab (m ((c : Thread nD τ).loc main_arg0)) b) (V m c main_arg4) (V m c main_v1)

/-- The value projection of batch `b`, as the body stores it. -/
def vals (c : Dev nD) (b : Fin 8) : Vec F S2048x256 .bf16 :=
  k0_pay4 (slab (m ((c : Thread nD τ).loc main_arg0)) b) (V m c main_arg6) (V m c main_v2)

/-- After point `n` the scratch buffers hold the key and value projections of batch `n / 4`. -/
theorem scratch_inv (c : Dev nD) : ∀ (n : ℕ) (hn : n < cfg0.N),
    (outsAt0 m c n hn).2.1 = keys m c ⟨n / 4, div4_lt hn⟩ ∧ (outsAt0 m c n hn).2.2 = vals m c ⟨n / 4, div4_lt hn⟩ := by
  intro n
  induction n using Nat.strong_induction_on with
  | _ n ih =>
    intro hn
    have hN : cfg0.N = 32 := N_0
    by_cases h0 : n % 4 = 0
    · rw [outsAt0_A m c ⟨n, hn⟩ h0]
      dsimp only
      refine ⟨?_, ?_⟩
      · refine (scratchA_key (F := F) c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) (ms0_4 ⟨n, hn⟩) (hs0_4 ⟨n, hn⟩) (ms0_5 ⟨n, hn⟩) (hs0_5 ⟨n, hn⟩) (ms0_6 ⟨n, hn⟩) (hs0_6 ⟨n, hn⟩) (ms0_7 ⟨n, hn⟩) (hs0_7 ⟨n, hn⟩) (ms0_8 ⟨n, hn⟩) (hs0_8 ⟨n, hn⟩) scM0_0 (Memref.isWhole_whole _) scM0_1 (Memref.isWhole_whole _) ((hcond0_0 ⟨n, hn⟩).mpr h0) (iblk m c 0 ⟨n, hn⟩) (iblk m c 1 ⟨n, hn⟩) (iblk m c 2 ⟨n, hn⟩) (iblk m c 3 ⟨n, hn⟩) (iblk m c 4 ⟨n, hn⟩) (iblk m c 5 ⟨n, hn⟩) (iblk m c 6 ⟨n, hn⟩) (iblk m c 7 ⟨n, hn⟩)).trans ?_
        unfold keys
        rw [blk_x m c ⟨n, hn⟩, blk_3 m c ⟨n, hn⟩, blk_4 m c ⟨n, hn⟩]
      · refine (scratchA_val (F := F) c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) (ms0_4 ⟨n, hn⟩) (hs0_4 ⟨n, hn⟩) (ms0_5 ⟨n, hn⟩) (hs0_5 ⟨n, hn⟩) (ms0_6 ⟨n, hn⟩) (hs0_6 ⟨n, hn⟩) (ms0_7 ⟨n, hn⟩) (hs0_7 ⟨n, hn⟩) (ms0_8 ⟨n, hn⟩) (hs0_8 ⟨n, hn⟩) scM0_0 (Memref.isWhole_whole _) scM0_1 (Memref.isWhole_whole _) ((hcond0_0 ⟨n, hn⟩).mpr h0) (iblk m c 0 ⟨n, hn⟩) (iblk m c 1 ⟨n, hn⟩) (iblk m c 2 ⟨n, hn⟩) (iblk m c 3 ⟨n, hn⟩) (iblk m c 4 ⟨n, hn⟩) (iblk m c 5 ⟨n, hn⟩) (iblk m c 6 ⟨n, hn⟩) (iblk m c 7 ⟨n, hn⟩)).trans ?_
        unfold vals
        rw [blk_x m c ⟨n, hn⟩, blk_5 m c ⟨n, hn⟩, blk_6 m c ⟨n, hn⟩]
    · rw [outsAt0_B m c ⟨n, hn⟩ h0]
      dsimp only
      unfold sout0_B_0 sout0_B_1
      have hq : (n - 1) / 4 = n / 4 := by omega
      obtain ⟨ik, iv⟩ := ih (n - 1) (by omega) (by omega)
      exact ⟨ik.trans (congrArg (keys m c) (Fin.ext hq)), iv.trans (congrArg (vals m c) (Fin.ext hq))⟩

/-- The output tile after point `t`: the body's quotient, from the query rows of batch `t / 4`'s slab, the query
    weights and bias, that batch's key and value projections, and the point's mask block. -/
theorem tile_eq (c : Dev nD) (t : Fin cfg0.N) :
    (outsAt0 m c t.val t.isLt).1
      = k0_pay1
          (k0_pay6 (qrows (grid0.coords t) (slab (m ((c : Thread nD τ).loc main_arg0)) ⟨t.val / 4, div4_lt t.isLt⟩))
            (V m c main_arg2) (V m c main_v0) (keys m c ⟨t.val / 4, div4_lt t.isLt⟩) (vals m c ⟨t.val / 4, div4_lt t.isLt⟩)
            (iblk m c 7 t))
          (k0_pay7 (qrows (grid0.coords t) (slab (m ((c : Thread nD τ).loc main_arg0)) ⟨t.val / 4, div4_lt t.isLt⟩))
            (V m c main_arg2) (V m c main_v0) (keys m c ⟨t.val / 4, div4_lt t.isLt⟩) (iblk m c 7 t)) := by
  have hN : cfg0.N = 32 := N_0
  by_cases h0 : t.val % 4 = 0
  · rw [outsAt0_A m c t h0]
    dsimp only
    refine (outA (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) ((hcond0_0 t).mpr h0) (iblk m c 0 t) (iblk m c 1 t) (iblk m c 2 t) (iblk m c 3 t) (iblk m c 4 t) (iblk m c 5 t) (iblk m c 6 t) (iblk m c 7 t)).trans ?_
    unfold keys vals
    rw [blk_x m c t, blk_1 m c t, blk_2 m c t, blk_3 m c t, blk_4 m c t, blk_5 m c t, blk_6 m c t]
  · rw [outsAt0_B m c t h0]
    dsimp only
    refine (outB (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.1 (outsAt0 m c (t.val - 1) (Nat.lt_of_le_of_lt (Nat.sub_le _ _) t.isLt)).2.2).trans ?_
    have hlt : t.val - 1 < cfg0.N := Nat.lt_of_le_of_lt (Nat.sub_le _ _) t.isLt
    have hq : (t.val - 1) / 4 = t.val / 4 := by have := t.isLt; omega
    obtain ⟨ik, iv⟩ := scratch_inv m c (t.val - 1) hlt
    have ek : (outsAt0 m c (t.val - 1) hlt).2.1 = keys m c ⟨t.val / 4, div4_lt t.isLt⟩ := ik.trans (congrArg (keys m c) (Fin.ext hq))
    have ev : (outsAt0 m c (t.val - 1) hlt).2.2 = vals m c ⟨t.val / 4, div4_lt t.isLt⟩ := iv.trans (congrArg (vals m c) (Fin.ext hq))
    rw [ek, ev, blk_x m c t, blk_1 m c t, blk_2 m c t]

end Cert.Attn.K

end
-- ==== Proof.Spec.lean ====
/-
  Masked scaled dot-product attention with a fused linear projection, as ONE function of the eight argument
  arrays, index by index, on the extended reals.

  For a batch b, a query row r and an output column a:
    q, k, v   = x W + bias                                   (three projections of the rows of x)
    s(b,r,k)  = (sum_a q(b,r,a) k(b,k,a)) * (1/16), replaced by the fill value -1e9 where mask(b,r,k) = 0
    out(b,r,a)= (sum_k exp s(b,r,k) * v(b,k,a)) / (sum_k exp s(b,r,k))
  The exponentials are taken of the scores as they are (no row maximum is subtracted). The row-level functions
  (`projRow`, `scoreRow`, `attnRow`) take one row's data as plain functions of coordinates, so that the same terms
  describe a block of the arrays and the arrays themselves.
-/
import Idealize.ShloMosaic.PureOps.Ideal
import Idealize.ShloMosaic.PureOps.Ideal.Laws
import Idealize.ShloMosaic.Lib.ValueIdx

noncomputable section

open scoped BigOperators

namespace Cert.Attn

open Idealize.ShloMosaic Idealize.ShloMosaic.ValueIdx

/-- The shapes of the arguments: activations, mask, a weight matrix, a bias. -/
abbrev SX : Shape := ⟨3, ![8, 2048, 256]⟩
abbrev SM : Shape := ⟨3, ![8, 2048, 2048]⟩
abbrev SW : Shape := ⟨2, ![256, 256]⟩
abbrev SB : Shape := ⟨1, ![256]⟩

/-- The word of the scale 1/16 = 1/sqrt 256 and of the fill value -1e9. -/
abbrev scaleW : BitVec 32 := 0x3D800000#32
abbrev fillW : BitVec 32 := 0xCE6E6B28#32

/-- One entry of a projection: a row `xr` of activations times column `a` of `W`, plus the bias at `a`. -/
def projRow (xr : Fin 256 → EReal) (W : SW.Idx → EReal) (bias : Fin 256 → EReal) (a : Fin 256) : EReal :=
  (∑ e : Fin 256, xr e * W (ix2 e a)) + bias a

/-- The masked scaled score of a query row `q` against key row `k` of `K`: the fill value where the mask word is zero. -/
def scoreRow (q : Fin 256 → EReal) (K : Fin 2048 → Fin 256 → EReal) (msk : Fin 2048 → BitVec 32) (k : Fin 2048) : EReal :=
  Scalar.select (IntOp.cmpi .eq (msk k) 0#32) (Ideal.ofBits .f32 fillW)
    ((∑ a : Fin 256, q a * K k a) * Ideal.ofBits .f32 scaleW)

/-- One output entry: the exponential-weighted sum of column `a` of the value rows over the sum of the weights. -/
def attnRow (q : Fin 256 → EReal) (K V : Fin 2048 → Fin 256 → EReal) (msk : Fin 2048 → BitVec 32) (a : Fin 256) : EReal :=
  Ideal.div (∑ k : Fin 2048, Ideal.exp (scoreRow q K msk k) * V k a) (∑ k : Fin 2048, Ideal.exp (scoreRow q K msk k))

/-- Row `r` of batch `b` of a projection of the array `x`. -/
def proj (x : SX.Idx → EReal) (W : SW.Idx → EReal) (bias : SB.Idx → EReal) (b : Fin 8) (r : Fin 2048) (a : Fin 256) : EReal :=
  projRow (fun e => x (ix3 b r e)) W (fun j => bias (ix1 j)) a

/-- The attention output at (b, r, a). -/
def attn (x : SX.Idx → EReal) (mask : SM.Idx → BitVec 32) (Wq : SW.Idx → EReal) (bq : SB.Idx → EReal) (Wk : SW.Idx → EReal)
    (bk : SB.Idx → EReal) (Wv : SW.Idx → EReal) (bv : SB.Idx → EReal) (b : Fin 8) (r : Fin 2048) (a : Fin 256) : EReal :=
  attnRow (proj x Wq bq b r) (proj x Wk bk b) (proj x Wv bv b) (fun k => mask (ix3 b r k)) a

/-- The whole result array. -/
def G (x : SX.Idx → EReal) (mask : SM.Idx → BitVec 32) (Wq : SW.Idx → EReal) (bq : SB.Idx → EReal) (Wk : SW.Idx → EReal)
    (bk : SB.Idx → EReal) (Wv : SW.Idx → EReal) (bv : SB.Idx → EReal) : SX.Idx → EReal :=
  fun i => attn x mask Wq bq Wk bk Wv bv (i 0) (i 1) (i 2)

theorem G_ix3 (x : SX.Idx → EReal) (mask : SM.Idx → BitVec 32) (Wq : SW.Idx → EReal) (bq : SB.Idx → EReal) (Wk : SW.Idx → EReal)
    (bk : SB.Idx → EReal) (Wv : SW.Idx → EReal) (bv : SB.Idx → EReal) (b : Fin 8) (r : Fin 2048) (a : Fin 256) :
    G x mask Wq bq Wk bk Wv bv (ix3 b r a) = attn x mask Wq bq Wk bk Wv bv b r a := rfl

end Cert.Attn

end
-- ==== Proof.KPay.lean ====
/-
  The kernel body's arithmetic, read at one entry, in the terms of the specification.

  What the body stores into the key and value scratch is a projection of the rows of its activation block; what it
  stores into the output block is, row by row, the attention quotient of the projected query row against whatever the
  two scratch buffers hold.
-/
import proofs.«409204_j50216757625374_3_alg».proof.Proof.Gen.KernelIdeal.Skeleton
import proofs.«409204_j50216757625374_3_alg».proof.Proof.Spec
import Idealize.ShloMosaic.Lib.ValueLayout
import Idealize.ShloMosaic.PureOps.Ideal.Laws

noncomputable section

open scoped BigOperators

namespace Cert.Attn

open Idealize.ShloMosaic Idealize.ShloMosaic.ValueIdx Cert.KernelIdeal Cert.KernelIdeal.Gen

/-! ## The four matrix products read at an entry

Each accumulates into a zero splat, so an entry is the plain sum over the shared axis; the sum over the
product's contraction index is re-indexed by the one contracted coordinate. -/

theorem lhs_dot_S2048x256_S256x256_S2048x256_1_0_0_1_n_n_0 (i : S2048x256.Idx) (q : dot_S2048x256_S256x256_S2048x256_1_0_0_1_n_n.contr.Idx) :
    (dot_S2048x256_S256x256_S2048x256_1_0_0_1_n_n.lhsIdx i q 0).val = (i 0).val := by
  unfold DotDims.lhsIdx
  rw [dif_neg (show ¬(0 : Fin S2048x256.rank) ∈ dot_S2048x256_S256x256_S2048x256_1_0_0_1_n_n.lhsBatch by decide), dif_pos (show (0 : Fin S2048x256.rank) ∈ dot_S2048x256_S256x256_S2048x256_1_0_0_1_n_n.lhsNonContracting by decide)]
  rfl
theorem lhs_dot_S2048x256_S256x256_S2048x256_1_0_0_1_n_n_1 (i : S2048x256.Idx) (q : dot_S2048x256_S256x256_S2048x256_1_0_0_1_n_n.contr.Idx) :
    (dot_S2048x256_S256x256_S2048x256_1_0_0_1_n_n.lhsIdx i q 1).val = (q ⟨0, by decide⟩).val :=
  dot_S2048x256_S256x256_S2048x256_1_0_0_1_n_n.lhsIdx_val_of_single rfl i q
theorem rhs_dot_S2048x256_S256x256_S2048x256_1_0_0_1_n_n_0 (i : S2048x256.Idx) (q : dot_S2048x256_S256x256_S2048x256_1_0_0_1_n_n.contr.Idx) :
    (dot_S2048x256_S256x256_S2048x256_1_0_0_1_n_n.rhsIdx i q 0).val = (q ⟨0, by decide⟩).val :=
  dot_S2048x256_S256x256_S2048x256_1_0_0_1_n_n.rhsIdx_val_of_single rfl i q
theorem rhs_dot_S2048x256_S256x256_S2048x256_1_0_0_1_n_n_1 (i : S2048x256.Idx) (q : dot_S2048x256_S256x256_S2048x256_1_0_0_1_n_n.contr.Idx) :
    (dot_S2048x256_S256x256_S2048x256_1_0_0_1_n_n.rhsIdx i q 1).val = (i 1).val := by
  unfold DotDims.rhsIdx
  rw [dif_neg (show ¬(1 : Fin S256x256.rank) ∈ dot_S2048x256_S256x256_S2048x256_1_0_0_1_n_n.rhsBatch by decide), dif_pos (show (1 : Fin S256x256.rank) ∈ dot_S2048x256_S256x256_S2048x256_1_0_0_1_n_n.rhsNonContracting by decide)]
  rfl

/-- The key and value projections: rows of the activation block times a weight matrix. -/
theorem matmul_kv_apply (lhs : FVec Ideal S2048x256 .bf16) (rhs : FVec Ideal S256x256 .bf16) (r : Fin 2048) (c : Fin 256) :
    matmul dot_S2048x256_S256x256_S2048x256_1_0_0_1_n_n none lhs rhs (constant (F := Ideal) S2048x256 .f32 0x00000000#32) (ix2 r c)
      = ∑ e : Fin 256, lhs (ix2 r e) * rhs (ix2 e c) := by
  refine (Ideal.matmul_constant_zero_apply dot_S2048x256_S256x256_S2048x256_1_0_0_1_n_n none lhs rhs (ix2 r c)).trans ?_
  rw [← Equiv.sum_comp (contrEquiv1 dot_S2048x256_S256x256_S2048x256_1_0_0_1_n_n 256 rfl rfl).symm]
  refine Finset.sum_congr rfl fun e _ => ?_
  have hk := contrEquiv1_symm_val dot_S2048x256_S256x256_S2048x256_1_0_0_1_n_n 256 rfl rfl e
  have el : dot_S2048x256_S256x256_S2048x256_1_0_0_1_n_n.lhsIdx (ix2 r c) ((contrEquiv1 dot_S2048x256_S256x256_S2048x256_1_0_0_1_n_n 256 rfl rfl).symm e) = ix2 r e := funext fun x => Fin.ext (by
    match x with
    | ⟨0, _⟩ => exact lhs_dot_S2048x256_S256x256_S2048x256_1_0_0_1_n_n_0 _ _
    | ⟨1, _⟩ => exact (lhs_dot_S2048x256_S256x256_S2048x256_1_0_0_1_n_n_1 _ _).trans hk)
  have er : dot_S2048x256_S256x256_S2048x256_1_0_0_1_n_n.rhsIdx (ix2 r c) ((contrEquiv1 dot_S2048x256_S256x256_S2048x256_1_0_0_1_n_n 256 rfl rfl).symm e) = ix2 e c := funext fun x => Fin.ext (by
    match x with
    | ⟨0, _⟩ => exact (rhs_dot_S2048x256_S256x256_S2048x256_1_0_0_1_n_n_0 _ _).trans hk
    | ⟨1, _⟩ => exact rhs_dot_S2048x256_S256x256_S2048x256_1_0_0_1_n_n_1 _ _)
  rw [el, er]

theorem lhs_dot_S512x256_S256x256_S512x256_1_0_0_1_n_n_0 (i : S512x256.Idx) (q : dot_S512x256_S256x256_S512x256_1_0_0_1_n_n.contr.Idx) :
    (dot_S512x256_S256x256_S512x256_1_0_0_1_n_n.lhsIdx i q 0).val = (i 0).val := by
  unfold DotDims.lhsIdx
  rw [dif_neg (show ¬(0 : Fin S512x256.rank) ∈ dot_S512x256_S256x256_S512x256_1_0_0_1_n_n.lhsBatch by decide), dif_pos (show (0 : Fin S512x256.rank) ∈ dot_S512x256_S256x256_S512x256_1_0_0_1_n_n.lhsNonContracting by decide)]
  rfl
theorem lhs_dot_S512x256_S256x256_S512x256_1_0_0_1_n_n_1 (i : S512x256.Idx) (q : dot_S512x256_S256x256_S512x256_1_0_0_1_n_n.contr.Idx) :
    (dot_S512x256_S256x256_S512x256_1_0_0_1_n_n.lhsIdx i q 1).val = (q ⟨0, by decide⟩).val :=
  dot_S512x256_S256x256_S512x256_1_0_0_1_n_n.lhsIdx_val_of_single rfl i q
theorem rhs_dot_S512x256_S256x256_S512x256_1_0_0_1_n_n_0 (i : S512x256.Idx) (q : dot_S512x256_S256x256_S512x256_1_0_0_1_n_n.contr.Idx) :
    (dot_S512x256_S256x256_S512x256_1_0_0_1_n_n.rhsIdx i q 0).val = (q ⟨0, by decide⟩).val :=
  dot_S512x256_S256x256_S512x256_1_0_0_1_n_n.rhsIdx_val_of_single rfl i q
theorem rhs_dot_S512x256_S256x256_S512x256_1_0_0_1_n_n_1 (i : S512x256.Idx) (q : dot_S512x256_S256x256_S512x256_1_0_0_1_n_n.contr.Idx) :
    (dot_S512x256_S256x256_S512x256_1_0_0_1_n_n.rhsIdx i q 1).val = (i 1).val := by
  unfold DotDims.rhsIdx
  rw [dif_neg (show ¬(1 : Fin S256x256.rank) ∈ dot_S512x256_S256x256_S512x256_1_0_0_1_n_n.rhsBatch by decide), dif_pos (show (1 : Fin S256x256.rank) ∈ dot_S512x256_S256x256_S512x256_1_0_0_1_n_n.rhsNonContracting by decide)]
  rfl

/-- The query projection: the loaded rows times the query weights. -/
theorem matmul_q_apply (lhs : FVec Ideal S512x256 .bf16) (rhs : FVec Ideal S256x256 .bf16) (r : Fin 512) (c : Fin 256) :
    matmul dot_S512x256_S256x256_S512x256_1_0_0_1_n_n none lhs rhs (constant (F := Ideal) S512x256 .f32 0x00000000#32) (ix2 r c)
      = ∑ e : Fin 256, lhs (ix2 r e) * rhs (ix2 e c) := by
  refine (Ideal.matmul_constant_zero_apply dot_S512x256_S256x256_S512x256_1_0_0_1_n_n none lhs rhs (ix2 r c)).trans ?_
  rw [← Equiv.sum_comp (contrEquiv1 dot_S512x256_S256x256_S512x256_1_0_0_1_n_n 256 rfl rfl).symm]
  refine Finset.sum_congr rfl fun e _ => ?_
  have hk := contrEquiv1_symm_val dot_S512x256_S256x256_S512x256_1_0_0_1_n_n 256 rfl rfl e
  have el : dot_S512x256_S256x256_S512x256_1_0_0_1_n_n.lhsIdx (ix2 r c) ((contrEquiv1 dot_S512x256_S256x256_S512x256_1_0_0_1_n_n 256 rfl rfl).symm e) = ix2 r e := funext fun x => Fin.ext (by
    match x with
    | ⟨0, _⟩ => exact lhs_dot_S512x256_S256x256_S512x256_1_0_0_1_n_n_0 _ _
    | ⟨1, _⟩ => exact (lhs_dot_S512x256_S256x256_S512x256_1_0_0_1_n_n_1 _ _).trans hk)
  have er : dot_S512x256_S256x256_S512x256_1_0_0_1_n_n.rhsIdx (ix2 r c) ((contrEquiv1 dot_S512x256_S256x256_S512x256_1_0_0_1_n_n 256 rfl rfl).symm e) = ix2 e c := funext fun x => Fin.ext (by
    match x with
    | ⟨0, _⟩ => exact (rhs_dot_S512x256_S256x256_S512x256_1_0_0_1_n_n_0 _ _).trans hk
    | ⟨1, _⟩ => exact rhs_dot_S512x256_S256x256_S512x256_1_0_0_1_n_n_1 _ _)
  rw [el, er]

theorem lhs_dot_S512x2048_S2048x256_S512x256_1_0_0_1_n_n_0 (i : S512x256.Idx) (q : dot_S512x2048_S2048x256_S512x256_1_0_0_1_n_n.contr.Idx) :
    (dot_S512x2048_S2048x256_S512x256_1_0_0_1_n_n.lhsIdx i q 0).val = (i 0).val := by
  unfold DotDims.lhsIdx
  rw [dif_neg (show ¬(0 : Fin S512x2048.rank) ∈ dot_S512x2048_S2048x256_S512x256_1_0_0_1_n_n.lhsBatch by decide), dif_pos (show (0 : Fin S512x2048.rank) ∈ dot_S512x2048_S2048x256_S512x256_1_0_0_1_n_n.lhsNonContracting by decide)]
  rfl
theorem lhs_dot_S512x2048_S2048x256_S512x256_1_0_0_1_n_n_1 (i : S512x256.Idx) (q : dot_S512x2048_S2048x256_S512x256_1_0_0_1_n_n.contr.Idx) :
    (dot_S512x2048_S2048x256_S512x256_1_0_0_1_n_n.lhsIdx i q 1).val = (q ⟨0, by decide⟩).val :=
  dot_S512x2048_S2048x256_S512x256_1_0_0_1_n_n.lhsIdx_val_of_single rfl i q
theorem rhs_dot_S512x2048_S2048x256_S512x256_1_0_0_1_n_n_0 (i : S512x256.Idx) (q : dot_S512x2048_S2048x256_S512x256_1_0_0_1_n_n.contr.Idx) :
    (dot_S512x2048_S2048x256_S512x256_1_0_0_1_n_n.rhsIdx i q 0).val = (q ⟨0, by decide⟩).val :=
  dot_S512x2048_S2048x256_S512x256_1_0_0_1_n_n.rhsIdx_val_of_single rfl i q
theorem rhs_dot_S512x2048_S2048x256_S512x256_1_0_0_1_n_n_1 (i : S512x256.Idx) (q : dot_S512x2048_S2048x256_S512x256_1_0_0_1_n_n.contr.Idx) :
    (dot_S512x2048_S2048x256_S512x256_1_0_0_1_n_n.rhsIdx i q 1).val = (i 1).val := by
  unfold DotDims.rhsIdx
  rw [dif_neg (show ¬(1 : Fin S2048x256.rank) ∈ dot_S512x2048_S2048x256_S512x256_1_0_0_1_n_n.rhsBatch by decide), dif_pos (show (1 : Fin S2048x256.rank) ∈ dot_S512x2048_S2048x256_S512x256_1_0_0_1_n_n.rhsNonContracting by decide)]
  rfl

/-- The weights times the value rows. -/
theorem matmul_wv_apply (lhs : FVec Ideal S512x2048 .bf16) (rhs : FVec Ideal S2048x256 .bf16) (r : Fin 512) (c : Fin 256) :
    matmul dot_S512x2048_S2048x256_S512x256_1_0_0_1_n_n none lhs rhs (constant (F := Ideal) S512x256 .f32 0x00000000#32) (ix2 r c)
      = ∑ e : Fin 2048, lhs (ix2 r e) * rhs (ix2 e c) := by
  refine (Ideal.matmul_constant_zero_apply dot_S512x2048_S2048x256_S512x256_1_0_0_1_n_n none lhs rhs (ix2 r c)).trans ?_
  rw [← Equiv.sum_comp (contrEquiv1 dot_S512x2048_S2048x256_S512x256_1_0_0_1_n_n 2048 rfl rfl).symm]
  refine Finset.sum_congr rfl fun e _ => ?_
  have hk := contrEquiv1_symm_val dot_S512x2048_S2048x256_S512x256_1_0_0_1_n_n 2048 rfl rfl e
  have el : dot_S512x2048_S2048x256_S512x256_1_0_0_1_n_n.lhsIdx (ix2 r c) ((contrEquiv1 dot_S512x2048_S2048x256_S512x256_1_0_0_1_n_n 2048 rfl rfl).symm e) = ix2 r e := funext fun x => Fin.ext (by
    match x with
    | ⟨0, _⟩ => exact lhs_dot_S512x2048_S2048x256_S512x256_1_0_0_1_n_n_0 _ _
    | ⟨1, _⟩ => exact (lhs_dot_S512x2048_S2048x256_S512x256_1_0_0_1_n_n_1 _ _).trans hk)
  have er : dot_S512x2048_S2048x256_S512x256_1_0_0_1_n_n.rhsIdx (ix2 r c) ((contrEquiv1 dot_S512x2048_S2048x256_S512x256_1_0_0_1_n_n 2048 rfl rfl).symm e) = ix2 e c := funext fun x => Fin.ext (by
    match x with
    | ⟨0, _⟩ => exact (rhs_dot_S512x2048_S2048x256_S512x256_1_0_0_1_n_n_0 _ _).trans hk
    | ⟨1, _⟩ => exact rhs_dot_S512x2048_S2048x256_S512x256_1_0_0_1_n_n_1 _ _)
  rw [el, er]

theorem lhs_dot_S512x256_S2048x256_S512x2048_1_1_0_0_n_n_0 (i : S512x2048.Idx) (q : dot_S512x256_S2048x256_S512x2048_1_1_0_0_n_n.contr.Idx) :
    (dot_S512x256_S2048x256_S512x2048_1_1_0_0_n_n.lhsIdx i q 0).val = (i 0).val := by
  unfold DotDims.lhsIdx
  rw [dif_neg (show ¬(0 : Fin S512x256.rank) ∈ dot_S512x256_S2048x256_S512x2048_1_1_0_0_n_n.lhsBatch by decide), dif_pos (show (0 : Fin S512x256.rank) ∈ dot_S512x256_S2048x256_S512x2048_1_1_0_0_n_n.lhsNonContracting by decide)]
  rfl
theorem lhs_dot_S512x256_S2048x256_S512x2048_1_1_0_0_n_n_1 (i : S512x2048.Idx) (q : dot_S512x256_S2048x256_S512x2048_1_1_0_0_n_n.contr.Idx) :
    (dot_S512x256_S2048x256_S512x2048_1_1_0_0_n_n.lhsIdx i q 1).val = (q ⟨0, by decide⟩).val :=
  dot_S512x256_S2048x256_S512x2048_1_1_0_0_n_n.lhsIdx_val_of_single rfl i q
theorem rhs_dot_S512x256_S2048x256_S512x2048_1_1_0_0_n_n_0 (i : S512x2048.Idx) (q : dot_S512x256_S2048x256_S512x2048_1_1_0_0_n_n.contr.Idx) :
    (dot_S512x256_S2048x256_S512x2048_1_1_0_0_n_n.rhsIdx i q 0).val = (i 1).val := by
  unfold DotDims.rhsIdx
  rw [dif_neg (show ¬(0 : Fin S2048x256.rank) ∈ dot_S512x256_S2048x256_S512x2048_1_1_0_0_n_n.rhsBatch by decide), dif_pos (show (0 : Fin S2048x256.rank) ∈ dot_S512x256_S2048x256_S512x2048_1_1_0_0_n_n.rhsNonContracting by decide)]
  rfl
theorem rhs_dot_S512x256_S2048x256_S512x2048_1_1_0_0_n_n_1 (i : S512x2048.Idx) (q : dot_S512x256_S2048x256_S512x2048_1_1_0_0_n_n.contr.Idx) :
    (dot_S512x256_S2048x256_S512x2048_1_1_0_0_n_n.rhsIdx i q 1).val = (q ⟨0, by decide⟩).val :=
  dot_S512x256_S2048x256_S512x2048_1_1_0_0_n_n.rhsIdx_val_of_single rfl i q

/-- The scores: query rows against key rows, both contracted along their second axis. -/
theorem matmul_score_apply (lhs : FVec Ideal S512x256 .bf16) (rhs : FVec Ideal S2048x256 .bf16) (r : Fin 512) (c : Fin 2048) :
    matmul dot_S512x256_S2048x256_S512x2048_1_1_0_0_n_n none lhs rhs (constant (F := Ideal) S512x2048 .f32 0x00000000#32) (ix2 r c)
      = ∑ e : Fin 256, lhs (ix2 r e) * rhs (ix2 c e) := by
  refine (Ideal.matmul_constant_zero_apply dot_S512x256_S2048x256_S512x2048_1_1_0_0_n_n none lhs rhs (ix2 r c)).trans ?_
  rw [← Equiv.sum_comp (contrEquiv1 dot_S512x256_S2048x256_S512x2048_1_1_0_0_n_n 256 rfl rfl).symm]
  refine Finset.sum_congr rfl fun e _ => ?_
  have hk := contrEquiv1_symm_val dot_S512x256_S2048x256_S512x2048_1_1_0_0_n_n 256 rfl rfl e
  have el : dot_S512x256_S2048x256_S512x2048_1_1_0_0_n_n.lhsIdx (ix2 r c) ((contrEquiv1 dot_S512x256_S2048x256_S512x2048_1_1_0_0_n_n 256 rfl rfl).symm e) = ix2 r e := funext fun x => Fin.ext (by
    match x with
    | ⟨0, _⟩ => exact lhs_dot_S512x256_S2048x256_S512x2048_1_1_0_0_n_n_0 _ _
    | ⟨1, _⟩ => exact (lhs_dot_S512x256_S2048x256_S512x2048_1_1_0_0_n_n_1 _ _).trans hk)
  have er : dot_S512x256_S2048x256_S512x2048_1_1_0_0_n_n.rhsIdx (ix2 r c) ((contrEquiv1 dot_S512x256_S2048x256_S512x2048_1_1_0_0_n_n 256 rfl rfl).symm e) = ix2 c e := funext fun x => Fin.ext (by
    match x with
    | ⟨0, _⟩ => exact rhs_dot_S512x256_S2048x256_S512x2048_1_1_0_0_n_n_0 _ _
    | ⟨1, _⟩ => exact (rhs_dot_S512x256_S2048x256_S512x2048_1_1_0_0_n_n_1 _ _).trans hk)
  rw [el, er]

/-! ## A column kept as a unit axis, and the sum along a row -/

/-- An `[a]` array cast to `[a, 1]` reads, at `(i, u)`, the operand at `i`, whatever the unit coordinate `u`. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at row `p`. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum of a `[512, 2048]` array along its rows, read at row `r`. -/
theorem rowSum_apply (src : FVec Ideal S512x2048 .f32) (h : S512x2048.Reduces [1] S512) (hφ : FKind.Formats .f32)
    (hacc : (0x00000000#32 : BitVec 32) = 0x00000000#32) (r : Fin 512) :
    multiReduction (F := Ideal) .add [1] S512 src 0x00000000#32 h hφ hacc (ix1 r) = ∑ k : Fin 2048, src (ix2 r k) := by
  refine (Ideal.multiReduction_add_single src 0x00000000#32 h hφ hacc (ix1 r)).trans ?_
  refine Finset.sum_congr rfl fun k _ => congrArg src ?_
  funext x
  match x with
  | ⟨0, _⟩ => rfl
  | ⟨1, _⟩ => rfl

/-! ## The two projections stored into the scratch buffers -/

/-- The key scratch's entry (k, a): row `k` of the activation block projected through the key weights. -/
theorem kpay3_apply (v38 : Vec Ideal S1x2048x256 .f32) (v41 : Vec Ideal S256x256 .f32) (v46 : Vec Ideal S1x256 .f32)
    (k : Fin 2048) (a : Fin 256) :
    k0_pay3 (F := Ideal) v38 v41 v46 (ix2 k a)
      = projRow (fun e => v38 (ix3 (0 : Fin 1) k e)) v41 (fun j => v46 (ix2 (0 : Fin 1) j)) a := by
  unfold k0_pay3 k0_pay2 projRow
  refine (congrFun (shapeCast_self _ shapeCasts_S2048x256_S2048x256) (ix2 k a)).trans ?_
  refine (truncf_apply _ bitsLt_bf16_f32 (ix2 k a)).trans ?_
  refine (addf_apply _ _ (ix2 k a)).trans ?_
  refine congrArg₂ (· + ·) ?_ ?_
  · refine (matmul_kv_apply _ _ k a).trans ?_
    refine Finset.sum_congr rfl fun e _ => ?_
    exact congrArg₂ (· * ·) (shapeCast_1ab_ab_apply v38 shapeCasts_S1x2048x256_S2048x256 k e) rfl
  · refine (broadcastTo_1b_ab_apply _ broadcasts_S1x256_S2048x256 k a).trans ?_
    exact congrFun (shapeCast_self v46 shapeCasts_S1x256_S1x256) (ix2 (0 : Fin 1) a)

/-- The value scratch's entry (k, a): the same through the value weights. -/
theorem kpay4_apply (v38 : Vec Ideal S1x2048x256 .f32) (v43 : Vec Ideal S256x256 .f32) (v51 : Vec Ideal S1x256 .f32)
    (k : Fin 2048) (a : Fin 256) :
    k0_pay4 (F := Ideal) v38 v43 v51 (ix2 k a)
      = projRow (fun e => v38 (ix3 (0 : Fin 1) k e)) v43 (fun j => v51 (ix2 (0 : Fin 1) j)) a := by
  unfold k0_pay4 k0_pay2 projRow
  refine (congrFun (shapeCast_self _ shapeCasts_S2048x256_S2048x256) (ix2 k a)).trans ?_
  refine (truncf_apply _ bitsLt_bf16_f32 (ix2 k a)).trans ?_
  refine (addf_apply _ _ (ix2 k a)).trans ?_
  refine congrArg₂ (· + ·) ?_ ?_
  · refine (matmul_kv_apply _ _ k a).trans ?_
    refine Finset.sum_congr rfl fun e _ => ?_
    exact congrArg₂ (· * ·) (shapeCast_1ab_ab_apply v38 shapeCasts_S1x2048x256_S2048x256 k e) rfl
  · refine (broadcastTo_1b_ab_apply _ broadcasts_S1x256_S2048x256 k a).trans ?_
    exact congrFun (shapeCast_self v51 shapeCasts_S1x256_S1x256) (ix2 (0 : Fin 1) a)

/-! ## The attention block read at an entry -/

/-- The exponentiated masked score of query row `p` against key row `k`. -/
theorem kpay5_apply (v6 : Vec Ideal S1x512x256 .f32) (v9 : Vec Ideal S256x256 .f32) (v12 : Vec Ideal S1x256 .f32)
    (v17 : Vec Ideal S2048x256 .bf16) (v22 : Vec Ideal S1x512x2048 .i32) (p : Fin 512) (k : Fin 2048) :
    k0_pay5 (F := Ideal) v6 v9 v12 v17 v22 (ix2 p k)
      = Ideal.exp (scoreRow (projRow (fun e => v6 (ix3 (0 : Fin 1) p e)) v9 (fun j => v12 (ix2 (0 : Fin 1) j)))
          (fun k a' => v17 (ix2 k a')) (fun k => v22 (ix3 (0 : Fin 1) p k)) k) := by
  unfold k0_pay5 scoreRow
  refine congrArg Ideal.exp ?_
  refine (select_apply _ _ _ (ix2 p k)).trans ?_
  refine congrArg₂ (fun c x => Scalar.select c (Ideal.ofBits .f32 fillW) x) ?_ ?_
  · exact congrArg (fun w => IntOp.cmpi .eq w 0#32) (shapeCast_1ab_ab_apply v22 shapeCasts_S1x512x2048_S512x2048 p k)
  · refine (mulf_apply _ _ (ix2 p k)).trans ?_
    refine congrArg₂ (· * ·) ?_ rfl
    refine (matmul_score_apply _ v17 p k).trans ?_
    refine Finset.sum_congr rfl fun e _ => ?_
    refine congrArg₂ (· * ·) ?_ rfl
    -- the projected query row at column `e`
    unfold projRow
    refine (truncf_apply _ bitsLt_bf16_f32 (ix2 p e)).trans ?_
    refine (addf_apply _ _ (ix2 p e)).trans ?_
    refine congrArg₂ (· + ·) ?_ ?_
    · refine (matmul_q_apply _ _ p e).trans ?_
      refine Finset.sum_congr rfl fun d _ => ?_
      exact congrArg₂ (· * ·) (shapeCast_1ab_ab_apply v6 shapeCasts_S1x512x256_S512x256 p d) rfl
    · refine (broadcastTo_1b_ab_apply _ broadcasts_S1x256_S512x256 p e).trans ?_
      exact congrFun (shapeCast_self v12 shapeCasts_S1x256_S1x256) (ix2 (0 : Fin 1) e)

/-- The denominator: the sum of row `p`'s weights, the same in every column. -/
theorem kpay7_apply (v6 : Vec Ideal S1x512x256 .f32) (v9 : Vec Ideal S256x256 .f32) (v12 : Vec Ideal S1x256 .f32)
    (v17 : Vec Ideal S2048x256 .bf16) (v22 : Vec Ideal S1x512x2048 .i32) (p : Fin 512) (a : Fin 256) :
    k0_pay7 (F := Ideal) v6 v9 v12 v17 v22 (ix2 p a)
      = ∑ k : Fin 2048, Ideal.exp (scoreRow (projRow (fun e => v6 (ix3 (0 : Fin 1) p e)) v9 (fun j => v12 (ix2 (0 : Fin 1) j)))
          (fun k a' => v17 (ix2 k a')) (fun k => v22 (ix3 (0 : Fin 1) p k)) k) := by
  unfold k0_pay7
  refine (broadcastTo_a1_ab_apply _ broadcasts_S512x1_S512x256 p a).trans ?_
  refine (shapeCast_a_a1_apply _ shapeCasts_S512_S512x1 p (0 : Fin 1)).trans ?_
  refine (rowSum_apply _ reduces_S512x2048_S512 (.inl rfl) rfl p).trans ?_
  exact Finset.sum_congr rfl fun k _ => kpay5_apply v6 v9 v12 v17 v22 p k

/-- The numerator: row `p`'s weights against column `a` of the value rows. -/
theorem kpay6_apply (v6 : Vec Ideal S1x512x256 .f32) (v9 : Vec Ideal S256x256 .f32) (v12 : Vec Ideal S1x256 .f32)
    (v17 v18 : Vec Ideal S2048x256 .bf16) (v22 : Vec Ideal S1x512x2048 .i32) (p : Fin 512) (a : Fin 256) :
    k0_pay6 (F := Ideal) v6 v9 v12 v17 v18 v22 (ix2 p a)
      = ∑ k : Fin 2048, Ideal.exp (scoreRow (projRow (fun e => v6 (ix3 (0 : Fin 1) p e)) v9 (fun j => v12 (ix2 (0 : Fin 1) j)))
          (fun k a' => v17 (ix2 k a')) (fun k => v22 (ix3 (0 : Fin 1) p k)) k) * v18 (ix2 k a) := by
  unfold k0_pay6
  refine (matmul_wv_apply _ v18 p a).trans ?_
  refine Finset.sum_congr rfl fun k _ => ?_
  exact congrArg₂ (· * ·) ((truncf_apply _ bitsLt_bf16_f32 (ix2 p k)).trans (kpay5_apply v6 v9 v12 v17 v22 p k)) rfl

/-- The output block's entry (p, a): the attention quotient of query row `p` (projected from the loaded rows `v6`)
    against the key rows `v17`, the value rows `v18` and row `p` of the mask block. -/
theorem kpay1_apply (v6 : Vec Ideal S1x512x256 .f32) (v9 : Vec Ideal S256x256 .f32) (v12 : Vec Ideal S1x256 .f32)
    (v17 v18 : Vec Ideal S2048x256 .bf16) (v22 : Vec Ideal S1x512x2048 .i32) (p : Fin 512) (a : Fin 256) :
    k0_pay1 (F := Ideal) (k0_pay6 v6 v9 v12 v17 v18 v22) (k0_pay7 v6 v9 v12 v17 v22) (ix3 (0 : Fin 1) p a)
      = attnRow (projRow (fun e => v6 (ix3 (0 : Fin 1) p e)) v9 (fun j => v12 (ix2 (0 : Fin 1) j)))
          (fun k a' => v17 (ix2 k a')) (fun k a' => v18 (ix2 k a')) (fun k => v22 (ix3 (0 : Fin 1) p k)) a := by
  unfold k0_pay1 attnRow
  refine (shapeCast_ab_1ab_apply _ shapeCasts_S512x256_S1x512x256 (0 : Fin 1) p a).trans ?_
  refine (divf_apply _ _ (ix2 p a)).trans ?_
  exact congrArg₂ Ideal.div (kpay6_apply v6 v9 v12 v17 v18 v22 p a) (kpay7_apply v6 v9 v12 v17 v22 p a)

end Cert.Attn

end
-- ==== Proof.Biases.lean ====
/-
  The three bias operands of the kernel call are the bias arguments reshaped from [256] to [1, 256] by the host
  before the call: entry (0, j) of the reshaped array is entry j of the argument.
-/
import proofs.«409204_j50216757625374_3_alg».proof.Proof.Gen.KernelIdeal.Frame
import Idealize.ShloMosaic.Lib.Pipeline.Value
import Idealize.ShloMosaic.Lib.ValueLayout
import Idealize.ShloMosaic.Lib.StableHlo.Run

noncomputable section

open Idealize.ShloMosaic Idealize.ShloMosaic.TcCoe Idealize.SL.Sem Idealize.ShloMosaic.ValueIdx
open Idealize.ShloMosaic.Pipeline (Dat)

namespace Cert.Attn.K

open Cert.KernelIdeal Cert.KernelIdeal.Gen

variable {F : FTy → Type} [FloatOps F]
variable (m : (ℓ : Loc nD τ sig) → Buf (Elt F) ℓ)

/-- The query bias as the region finds it. -/
theorem bias_q (c : Dev nD) (j : Fin 256) :
    (V m c main_v0 : S1x256.Idx → Elt F .f32) (ix2 (0 : Fin 1) j)
      = (m ((c : Thread nD τ).loc main_arg3) : S256.Idx → Elt F .f32) (ix1 j) := by
  -- the host wrote this operand as the argument cast from [256] to [1, 256]; such a cast reads entry j at (0, j)
  have e : (V m c main_v0 : S1x256.Idx → Elt F .f32)
      = shapeCast S1x256 (m ((c : Thread nD τ).loc main_arg3) : S256.Idx → Elt F .f32) shapeCasts_S256_S1x256 := by
    dsimp only [Gen.V, Gen.hostOps0]; after_results; rfl
  rw [e]
  exact shapeCast_a_1a_apply _ _ 0 j

/-- The key bias as the region finds it. -/
theorem bias_k (c : Dev nD) (j : Fin 256) :
    (V m c main_v1 : S1x256.Idx → Elt F .f32) (ix2 (0 : Fin 1) j)
      = (m ((c : Thread nD τ).loc main_arg5) : S256.Idx → Elt F .f32) (ix1 j) := by
  -- the host wrote this operand as the argument cast from [256] to [1, 256]; such a cast reads entry j at (0, j)
  have e : (V m c main_v1 : S1x256.Idx → Elt F .f32)
      = shapeCast S1x256 (m ((c : Thread nD τ).loc main_arg5) : S256.Idx → Elt F .f32) shapeCasts_S256_S1x256 := by
    dsimp only [Gen.V, Gen.hostOps0]; after_results; rfl
  rw [e]
  exact shapeCast_a_1a_apply _ _ 0 j

/-- The value bias as the region finds it. -/
theorem bias_v (c : Dev nD) (j : Fin 256) :
    (V m c main_v2 : S1x256.Idx → Elt F .f32) (ix2 (0 : Fin 1) j)
      = (m ((c : Thread nD τ).loc main_arg7) : S256.Idx → Elt F .f32) (ix1 j) := by
  -- the host wrote this operand as the argument cast from [256] to [1, 256]; such a cast reads entry j at (0, j)
  have e : (V m c main_v2 : S1x256.Idx → Elt F .f32)
      = shapeCast S1x256 (m ((c : Thread nD τ).loc main_arg7) : S256.Idx → Elt F .f32) shapeCasts_S256_S1x256 := by
    dsimp only [Gen.V, Gen.hostOps0]; after_results; rfl
  rw [e]
  exact shapeCast_a_1a_apply _ _ 0 j

end Cert.Attn.K

end
-- ==== Proof.Cover.lean ====
/-
  The 32 output blocks tile the output array: entry (b, r, a) lies in the block of grid point 4 b + r / 512, and every
  point writes its block back.
-/
import proofs.«409204_j50216757625374_3_alg».proof.Proof.Gen.KernelIdeal.Frame
import Idealize.ShloMosaic.Lib.Pipeline.Value
import Idealize.ShloMosaic.Lib.ValueIdx

noncomputable section

open Idealize.ShloMosaic Idealize.ShloMosaic.TcCoe Idealize.SL.Sem Idealize.ShloMosaic.ValueIdx
open Idealize.ShloMosaic.Pipeline (Dat)

namespace Cert.Attn.K

open Cert.KernelIdeal Cert.KernelIdeal.Gen

variable {F : FTy → Type} [FloatOps F]
variable (m : (ℓ : Loc nD τ sig) → Buf (Elt F) ℓ)

/-- An index of the output array is in point `t`'s block iff each coordinate is in the block's range on its axis. -/
theorem mem_blk8 (t : Fin cfg0.N) (i : S8x2048x256.Idx) :
    i ∈ ((cfg0.win 8).blk t).view.set ↔ ∀ a : Fin 3, win0_8.index t a * S1x512x256.size a ≤ (i a).val ∧ (i a).val < win0_8.index t a * S1x512x256.size a + S1x512x256.size a := by
  show i ∈ ((View.whole main_v3).slice (win0_8.rect t)).set ↔ _
  rw [View.set_slice_whole, Rect.mem_set_unit]
  exact Iff.rfl

/-- The output's block index at grid point `t`, read over the 32 points: (t / 4, t % 4, 0). -/
theorem idx_facts8 : ∀ t : Fin cfg0.N, win0_8.index t (0 : Fin 3) = t.val / 4 ∧ win0_8.index t (1 : Fin 3) = t.val % 4
    ∧ win0_8.index t (2 : Fin 3) = 0 :=
  (by decide +kernel : ∀ t : Fin grid0.N, win0_8.index t (0 : Fin 3) = t.val / 4 ∧ win0_8.index t (1 : Fin 3) = t.val % 4
    ∧ win0_8.index t (2 : Fin 3) = 0)

/-- Every index of the output array is in the block of a point that writes back. -/
theorem cover8 (i : S8x2048x256.Idx) :
    ∃ t : Fin cfg0.N, (cfg0.win 8).flush t = true ∧ i ∈ ((cfg0.win 8).blk t).view.set := by
  have hi0 : (i 0).val < 8 := (i 0).isLt
  have hi1 : (i 1).val < 2048 := (i 1).isLt
  have hi2 : (i 2).val < 256 := (i 2).isLt
  have hN : cfg0.N = 32 := N_0
  -- the point 4 b + r / 512
  let t : Fin cfg0.N := ⟨4 * (i 0).val + (i 1).val / 512, by omega⟩
  have ht : t.val = 4 * (i 0).val + (i 1).val / 512 := rfl
  obtain ⟨e0, e1, e2⟩ := idx_facts8 t
  refine ⟨t, flush0_8 t, ?_⟩
  rw [mem_blk8]
  intro a
  match a with
  | ⟨0, _⟩ => show win0_8.index t (0 : Fin 3) * 1 ≤ (i 0).val ∧ (i 0).val < win0_8.index t (0 : Fin 3) * 1 + 1; omega
  | ⟨1, _⟩ => show win0_8.index t (1 : Fin 3) * 512 ≤ (i 1).val ∧ (i 1).val < win0_8.index t (1 : Fin 3) * 512 + 512; omega
  | ⟨2, _⟩ => show win0_8.index t (2 : Fin 3) * 256 ≤ (i 2).val ∧ (i 2).val < win0_8.index t (2 : Fin 3) * 256 + 256; omega

end Cert.Attn.K

end
-- ==== Proof.KValue.lean ====
/-
  The idealized kernel's result array is the attention function of the arguments.

  At grid point t (query tile t % 4 of batch t / 4) the output tile's entry (p, a) is the body's quotient read at that
  entry: the query row is row 512 (t % 4) + p of the batch's activations projected through the query weights and bias,
  the scratch buffers hold the batch's key and value projections, and the mask tile's row p is the same row of the
  batch's mask: that is the specification's value at (t / 4, 512 (t % 4) + p, a). The 32 tiles are written back to
  disjoint blocks that cover the result array, so the array ends holding the specification everywhere.
-/
import proofs.«409204_j50216757625374_3_alg».proof.Proof.Tiles
import proofs.«409204_j50216757625374_3_alg».proof.Proof.KPay
import proofs.«409204_j50216757625374_3_alg».proof.Proof.Biases
import proofs.«409204_j50216757625374_3_alg».proof.Proof.Cover
import proofs.«409204_j50216757625374_3_alg».proof.Proof.Spec
import proofs.«409204_j50216757625374_3_alg».proof.Proof.Gen.KernelIdeal.Value

noncomputable section

open scoped BigOperators

open Idealize.ShloMosaic Idealize.ShloMosaic.TcCoe Idealize.SL.Sem Idealize.ShloMosaic.ValueIdx
open Idealize.ShloMosaic.Pipeline (Dat)

namespace Cert.Attn.K

open Cert.KernelIdeal Cert.KernelIdeal.Gen

variable (m : (ℓ : Loc nD τ sig) → Buf (Elt Ideal) ℓ) (ρ : Dev nD → PrngReg)

/-- The specification at the arguments' contents at launch, on core `c`. -/
def Gm (c : Dev nD) : S8x2048x256.Idx → EReal :=
  Cert.Attn.G (m ((c : Thread nD τ).loc main_arg0)) (m ((c : Thread nD τ).loc main_arg1))
    (m ((c : Thread nD τ).loc main_arg2)) (m ((c : Thread nD τ).loc main_arg3))
    (m ((c : Thread nD τ).loc main_arg4)) (m ((c : Thread nD τ).loc main_arg5))
    (m ((c : Thread nD τ).loc main_arg6)) (m ((c : Thread nD τ).loc main_arg7))

/-- A slab's entry is the array's entry in that batch. -/
theorem slab_apply {F : FTy → Type} [FloatOps F] (x : S8x2048x256.Idx → Elt F .f32) (b : Fin 8) (r : Fin 2048) (e : Fin 256) :
    slab x b (ix3 (0 : Fin 1) r e) = x (ix3 b r e) := rfl

/-- The query rows of point `t`: row `p` of the tile is row `512 (t % 4) + p` of the block. -/
theorem qrows_apply {F : FTy → Type} [FloatOps F] (t : Fin cfg0.N) (X : Vec F S1x2048x256 .f32) (p : Fin 512) (e : Fin 256) :
    qrows (grid0.coords t) X (ix3 (0 : Fin 1) p e) = X (ix3 (0 : Fin 1) ⟨(t.val % 4) * 512 + p.val, row_lt p⟩ e) := by
  obtain ⟨-, -, -, -, -, -, -, -, -, ⟨o0, o1, o2⟩⟩ := idx_facts t
  show X ((Rect.unit (s := S1x2048x256) (k0_off1 (grid0.coords t)) S1x512x256.size (k0_off1_inb (grid0.coords t))).emb (ix3 (0 : Fin 1) p e)) = _
  congr 1
  funext a
  apply Fin.ext
  rw [Rect.emb_apply, Rect.off_unit, Rect.stride_unit]
  match a with
  | ⟨0, _⟩ => show k0_off1 (grid0.coords t) (0 : Fin 3) + 1 * 0 = 0; rw [o0]
  | ⟨1, _⟩ => show k0_off1 (grid0.coords t) (1 : Fin 3) + 1 * p.val = (t.val % 4) * 512 + p.val; rw [o1]; omega
  | ⟨2, _⟩ => show k0_off1 (grid0.coords t) (2 : Fin 3) + 1 * e.val = e.val; rw [o2]; omega

/-- THE TILE AT AN ENTRY: the body's quotient at entry (p, a) of point `t`'s tile is the specification at
    (t / 4, 512 (t % 4) + p, a). -/
theorem tile_apply (c : Dev nD) (t : Fin cfg0.N) (p : Fin 512) (a : Fin 256) :
    k0_pay1 (F := Ideal)
        (k0_pay6 (qrows (grid0.coords t) (slab (m ((c : Thread nD τ).loc main_arg0)) ⟨t.val / 4, div4_lt t.isLt⟩))
          (V m c main_arg2) (V m c main_v0) (keys m c ⟨t.val / 4, div4_lt t.isLt⟩) (vals m c ⟨t.val / 4, div4_lt t.isLt⟩)
          (iblk m c 7 t))
        (k0_pay7 (qrows (grid0.coords t) (slab (m ((c : Thread nD τ).loc main_arg0)) ⟨t.val / 4, div4_lt t.isLt⟩))
          (V m c main_arg2) (V m c main_v0) (keys m c ⟨t.val / 4, div4_lt t.isLt⟩) (iblk m c 7 t))
        (ix3 (0 : Fin 1) p a)
      = Gm m c (ix3 ⟨t.val / 4, div4_lt t.isLt⟩ ⟨(t.val % 4) * 512 + p.val, row_lt p⟩ a) := by
  refine (kpay1_apply _ _ _ _ _ _ p a).trans ?_
  unfold Gm
  rw [G_ix3]
  unfold attn
  have hq : projRow (fun e => qrows (grid0.coords t) (slab (m ((c : Thread nD τ).loc main_arg0)) ⟨t.val / 4, div4_lt t.isLt⟩) (ix3 (0 : Fin 1) p e))
        (V m c main_arg2) (fun j => (V m c main_v0 : S1x256.Idx → Elt Ideal .f32) (ix2 (0 : Fin 1) j))
      = proj (m ((c : Thread nD τ).loc main_arg0)) (m ((c : Thread nD τ).loc main_arg2)) (m ((c : Thread nD τ).loc main_arg3))
          ⟨t.val / 4, div4_lt t.isLt⟩ ⟨(t.val % 4) * 512 + p.val, row_lt p⟩ := by
    unfold proj
    have e1 : (fun e : Fin 256 => qrows (grid0.coords t) (slab (m ((c : Thread nD τ).loc main_arg0)) ⟨t.val / 4, div4_lt t.isLt⟩) (ix3 (0 : Fin 1) p e))
        = fun e : Fin 256 => (m ((c : Thread nD τ).loc main_arg0) : S8x2048x256.Idx → Elt Ideal .f32)
            (ix3 ⟨t.val / 4, div4_lt t.isLt⟩ ⟨(t.val % 4) * 512 + p.val, row_lt p⟩ e) :=
      funext fun e => qrows_apply t _ p e
    have e3 : (fun j : Fin 256 => (V m c main_v0 : S1x256.Idx → Elt Ideal .f32) (ix2 (0 : Fin 1) j))
        = fun j : Fin 256 => (m ((c : Thread nD τ).loc main_arg3) : S256.Idx → Elt Ideal .f32) (ix1 j) :=
      funext fun j => bias_q m c j
    rw [e1, e3, V_main_arg2]
  have hk : (fun (k : Fin 2048) (a' : Fin 256) => keys m c ⟨t.val / 4, div4_lt t.isLt⟩ (ix2 k a'))
      = proj (m ((c : Thread nD τ).loc main_arg0)) (m ((c : Thread nD τ).loc main_arg4)) (m ((c : Thread nD τ).loc main_arg5))
          ⟨t.val / 4, div4_lt t.isLt⟩ := by
    funext k a'
    unfold keys proj
    rw [kpay3_apply, V_main_arg4]
    have e3 : (fun j : Fin 256 => (V m c main_v1 : S1x256.Idx → Elt Ideal .f32) (ix2 (0 : Fin 1) j))
        = fun j : Fin 256 => (m ((c : Thread nD τ).loc main_arg5) : S256.Idx → Elt Ideal .f32) (ix1 j) :=
      funext fun j => bias_k m c j
    exact congrArg (fun B : Fin 256 → EReal => projRow _ _ B a') e3
  have hv : (fun (k : Fin 2048) (a' : Fin 256) => vals m c ⟨t.val / 4, div4_lt t.isLt⟩ (ix2 k a'))
      = proj (m ((c : Thread nD τ).loc main_arg0)) (m ((c : Thread nD τ).loc main_arg6)) (m ((c : Thread nD τ).loc main_arg7))
          ⟨t.val / 4, div4_lt t.isLt⟩ := by
    funext k a'
    unfold vals proj
    rw [kpay4_apply, V_main_arg6]
    have e3 : (fun j : Fin 256 => (V m c main_v2 : S1x256.Idx → Elt Ideal .f32) (ix2 (0 : Fin 1) j))
        = fun j : Fin 256 => (m ((c : Thread nD τ).loc main_arg7) : S256.Idx → Elt Ideal .f32) (ix1 j) :=
      funext fun j => bias_v m c j
    exact congrArg (fun B : Fin 256 → EReal => projRow _ _ B a') e3
  have hm : (fun k : Fin 2048 => (iblk m c 7 t : Vec Ideal S1x512x2048 .i32) (ix3 (0 : Fin 1) p k))
      = fun k : Fin 2048 => (m ((c : Thread nD τ).loc main_arg1) : S8x2048x2048.Idx → Elt Ideal .i32)
          (ix3 ⟨t.val / 4, div4_lt t.isLt⟩ ⟨(t.val % 4) * 512 + p.val, row_lt p⟩ k) :=
    funext fun k => blk_mask_apply m c t p k
  rw [hq, hk, hv, hm]

/-- WHAT POINT `t` WRITES BACK is its block of the specification. -/
theorem flushed_eq (c : Dev nD) (t : Fin cfg0.N) (hf : (cfg0.win 8).flush t = true) :
    (dats m 0 c).flushed 8 t = ((cfg0.win 8).blk t).view.read (Elt Ideal) (Gm m c) := by
  obtain ⟨-, -, ⟨h0, h1, h2⟩, -⟩ := idx_facts t
  have key : ∀ j : S1x512x256.Idx,
      k0_pay1 (F := Ideal)
        (k0_pay6 (qrows (grid0.coords t) (slab (m ((c : Thread nD τ).loc main_arg0)) ⟨t.val / 4, div4_lt t.isLt⟩))
          (V m c main_arg2) (V m c main_v0) (keys m c ⟨t.val / 4, div4_lt t.isLt⟩) (vals m c ⟨t.val / 4, div4_lt t.isLt⟩)
          (iblk m c 7 t))
        (k0_pay7 (qrows (grid0.coords t) (slab (m ((c : Thread nD τ).loc main_arg0)) ⟨t.val / 4, div4_lt t.isLt⟩))
          (V m c main_arg2) (V m c main_v0) (keys m c ⟨t.val / 4, div4_lt t.isLt⟩) (iblk m c 7 t)) j
        = Gm m c (ix3 ⟨t.val / 4, div4_lt t.isLt⟩ ⟨(t.val % 4) * 512 + (j 1).val, row_lt (j 1)⟩ (j 2)) := by
    intro j
    obtain ⟨z, p, a, rfl⟩ : ∃ (z : Fin 1) (p : Fin 512) (a : Fin 256), j = ix3 z p a := ⟨j 0, j 1, j 2, eq_ix3 j⟩
    obtain rfl : z = 0 := Subsingleton.elim _ _
    exact tile_apply m c t p a
  rw [Cert.KernelIdeal.Value.flushed8, tile_eq m c t]
  funext y
  refine (key _).trans ?_
  rw [View.read_apply]
  show Gm m c _ = Gm m c (((cfg0.win 8).blk t).view.emb y)
  congr 1
  funext d
  apply Fin.ext
  match d with
  | ⟨0, _⟩ => show t.val / 4 = win0_8.index t (0 : Fin 3) * 1 + 1 * (y 0).val; rw [h0]; have hy0 : (y 0).val < 1 := (y 0).isLt; omega
  | ⟨1, _⟩ => show (t.val % 4) * 512 + (y 1).val = win0_8.index t (1 : Fin 3) * 512 + 1 * (y 1).val; rw [h1]; omega
  | ⟨2, _⟩ => show (y 2).val = win0_8.index t (2 : Fin 3) * 256 + 1 * (y 2).val; rw [h2]; omega

/-- THE RESULT ARRAY after the run is the specification. -/
theorem final (c : Dev nD) : (dats m 0 c).arrAt 8 cfg0.N = Gm m c :=
  (dats m 0 c).arrAt_eq_of_cover 8 (Gm m c) (flushed_eq m c) cover8

/-- The kernel's run, with the result array at the specification and the arguments unchanged. -/
theorem run : θ_run defs (onTc (τ := τ) (main (F := Ideal))) ⟨m, fun _ => 0, ρ⟩ fun r => ∀ c : Dev nD,
      r.2.mem ((c : Thread nD τ).loc main_v3) = Gm m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final m c), (h c).2⟩) (Cert.KernelIdeal.Value.run_blocks m ρ)

end Cert.Attn.K

end
-- ==== Proof.Reals.lean ====
/-
  Extended reals that are real numbers, and the two laws of the exponential weights that need them.

  `IsReal x` says the extended real `x` is (the image of) a real number. Real numbers are closed under the
  operations the attention scores are made of (sums, products, the division by a non-zero real, the exponential,
  a choice between two of them, a maximum over a non-empty finite set). On real scores and values
    * subtracting one real number M from every score changes no weight  exp(s_k - M) / sum_j exp(s_j - M), and
    * the quotient by the (positive, real) sum of the weights moves inside the weighted sum of the values,
  which together say that the weights normalised after a shift give the same average as the plain quotient.
-/
import Idealize.ShloMosaic.PureOps.Ideal
import Idealize.ShloMosaic.PureOps.Ideal.Laws

noncomputable section

open scoped BigOperators

namespace Cert.Attn

open Idealize.ShloMosaic

/-- The extended real `x` is a real number. -/
def IsReal (x : EReal) : Prop := ∃ r : ℝ, x = (r : EReal)

theorem IsReal.coe (r : ℝ) : IsReal (r : EReal) := ⟨r, rfl⟩

theorem IsReal.add {x y : EReal} (hx : IsReal x) (hy : IsReal y) : IsReal (x + y) := by
  obtain ⟨a, rfl⟩ := hx
  obtain ⟨b, rfl⟩ := hy
  exact ⟨a + b, (EReal.coe_add a b).symm⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem IsReal.sub {x y : EReal} (hx : IsReal x) (hy : IsReal y) : IsReal (x - y) := by
  obtain ⟨a, rfl⟩ := hx
  obtain ⟨b, rfl⟩ := hy
  exact ⟨a - b, (EReal.coe_sub a b).symm⟩

theorem IsReal.sum {ι : Type*} (S : Finset ι) (f : ι → EReal) (hf : ∀ i ∈ S, IsReal (f i)) : IsReal (∑ i ∈ S, f i) := by
  refine Finset.sum_induction f IsReal (fun _ _ ha hb => ha.add hb) ⟨0, rfl⟩ hf

/-- The coercion of a finite sum of real numbers is the sum of the coercions. -/
theorem coe_sum {ι : Type*} (S : Finset ι) (f : ι → ℝ) : ((∑ i ∈ S, f i : ℝ) : EReal) = ∑ i ∈ S, (f i : EReal) := by
  classical
  induction S using Finset.induction_on with
  | empty => simp
  | insert a S ha ih => rw [Finset.sum_insert ha, Finset.sum_insert ha, EReal.coe_add, ih]

theorem IsReal.exp {x : EReal} (hx : IsReal x) : IsReal (Ideal.exp x) := by
  obtain ⟨a, rfl⟩ := hx
  exact ⟨Real.exp a, Ideal.exp_coe a⟩

theorem IsReal.ne_top {x : EReal} (hx : IsReal x) : x ≠ ⊤ := by
  obtain ⟨a, rfl⟩ := hx
  exact EReal.coe_ne_top a

theorem IsReal.ne_bot {x : EReal} (hx : IsReal x) : x ≠ ⊥ := by
  obtain ⟨a, rfl⟩ := hx
  exact EReal.coe_ne_bot a

/-- The quotient of a real number by a non-zero real number is a real number. -/
theorem IsReal.div {x : EReal} (hx : IsReal x) {r : ℝ} (hr : r ≠ 0) : IsReal (Ideal.div x (r : EReal)) := by
  rw [Ideal.div_coe hr]
  exact hx.mul (IsReal.coe _)

theorem IsReal.select (c : BitVec 1) {x y : EReal} (hx : IsReal x) (hy : IsReal y) : IsReal (Scalar.select c x y) := by
  unfold Scalar.select
  split
  · exact hx
  · exact hy

/-- The fold of `max` from the bottom over a non-empty finite set of real numbers is a real number. -/
theorem IsReal.fold_max {ι : Type*} (S : Finset ι) (hS : S.Nonempty) (f : ι → EReal) (hf : ∀ i ∈ S, IsReal (f i)) :
    IsReal (S.fold max (⊥ : EReal) f) := by
  -- below the top: the bottom and every member are
  have hlt : S.fold max (⊥ : EReal) f < ⊤ := by
    refine (Finset.fold_max_lt _).2 ⟨bot_lt_top, fun i hi => ?_⟩
    obtain ⟨r, hr⟩ := hf i hi
    rw [hr]
    exact EReal.coe_lt_top r
  -- above the bottom: some member is, and the fold is at least that member
  have hgt : (⊥ : EReal) < S.fold max (⊥ : EReal) f := by
    obtain ⟨i, hi⟩ := hS
    obtain ⟨r, hr⟩ := hf i hi
    refine lt_of_lt_of_le (EReal.bot_lt_coe r) ((Finset.le_fold_max _).2 (Or.inr ⟨i, hi, ?_⟩))
    rw [hr]
  exact ⟨(S.fold max (⊥ : EReal) f).toReal, (EReal.coe_toReal hlt.ne hgt.ne').symm⟩

/-- The words this kernel uses, as extended reals. -/
theorem ofBits_scale : Ideal.ofBits .f32 0x3D800000#32 = ((1 / 16 : ℝ) : EReal) := by
  simp [Ideal.ofBits, Ideal.ieee, -EReal.coe_mul]
  norm_num

theorem ofBits_256 : Ideal.ofBits .f32 0x43800000#32 = ((256 : ℝ) : EReal) := by
  simp [Ideal.ofBits, Ideal.ieee, -EReal.coe_mul]
  norm_num

theorem ofBits_fill : Ideal.ofBits .f32 0xCE6E6B28#32 = ((-1000000000 : ℝ) : EReal) := by
  simp [Ideal.ofBits, Ideal.ieee, -EReal.coe_mul]
  norm_num

theorem ofBits_neg_inf : Ideal.ofBits .f32 0xFF800000#32 = (⊥ : EReal) := by
  simp [Ideal.ofBits, Ideal.ieee]

/-- Dividing by the square root of 256 is multiplying by 1/16, on every extended real. -/
theorem div_sqrt_256 (x : EReal) :
    Ideal.div x (Ideal.sqrt (Ideal.ofBits .f32 0x43800000#32)) = x * Ideal.ofBits .f32 0x3D800000#32 := by
  have h16 : Real.sqrt 256 = 16 := by
    rw [show (256 : ℝ) = 16 ^ 2 by norm_num]
    exact Real.sqrt_sq (by norm_num)
  rw [ofBits_256, ofBits_scale, Ideal.sqrt_coe, if_neg (by norm_num), h16, Ideal.div_coe (by norm_num)]

/-- SHIFT INVARIANCE AND THE QUOTIENT MOVED INSIDE: for real scores `s`, real values `v` and a real shift `M`, the
    average of `v` under the weights `exp (s k - M)` normalised by their sum (the sum started from zero) is the
    quotient of the plainly weighted sum by the plain sum of weights. -/
theorem softmax_shift {n : ℕ} (hn : 0 < n) (s v : Fin n → EReal) (hs : ∀ k, IsReal (s k)) (hv : ∀ k, IsReal (v k))
    (M : EReal) (hM : IsReal M) :
    ∑ k : Fin n, Ideal.div (Ideal.exp (s k - M)) (0 + ∑ j : Fin n, Ideal.exp (s j - M)) * v k
      = Ideal.div (∑ k : Fin n, Ideal.exp (s k) * v k) (∑ k : Fin n, Ideal.exp (s k)) := by
  haveI : Nonempty (Fin n) := ⟨⟨0, hn⟩⟩
  choose s' hs' using hs
  choose v' hv' using hv
  obtain ⟨m, rfl⟩ := hM
  obtain rfl : s = fun k => (s' k : EReal) := funext hs'
  obtain rfl : v = fun k => (v' k : EReal) := funext hv'
  -- the two sums of weights are positive real numbers
  have hD : 0 < ∑ j : Fin n, Real.exp (s' j - m) :=
    Finset.sum_pos (fun j _ => Real.exp_pos _) Finset.univ_nonempty
  have hE : 0 < ∑ j : Fin n, Real.exp (s' j) :=
    Finset.sum_pos (fun j _ => Real.exp_pos _) Finset.univ_nonempty
  -- both sides are coercions of real expressions
  have e1 : ∀ k, Ideal.exp ((s' k : EReal) - (m : EReal)) = ((Real.exp (s' k - m) : ℝ) : EReal) := fun k => by
    rw [← EReal.coe_sub, Ideal.exp_coe]
  have hL : ∑ k : Fin n, Ideal.div (Ideal.exp ((s' k : EReal) - (m : EReal)))
        (0 + ∑ j : Fin n, Ideal.exp ((s' j : EReal) - (m : EReal))) * (v' k : EReal)
      = ((∑ k : Fin n, Real.exp (s' k - m) * (1 / ∑ j : Fin n, Real.exp (s' j - m)) * v' k : ℝ) : EReal) := by
    rw [coe_sum, zero_add]
    refine Finset.sum_congr rfl fun k _ => ?_
    simp only [e1]
    rw [← coe_sum, Ideal.div_coe hD.ne', ← EReal.coe_mul, ← EReal.coe_mul]
  have hR : Ideal.div (∑ k : Fin n, Ideal.exp (s' k : EReal) * (v' k : EReal)) (∑ k : Fin n, Ideal.exp (s' k : EReal))
      = (((∑ k : Fin n, Real.exp (s' k) * v' k) * (1 / ∑ j : Fin n, Real.exp (s' j)) : ℝ) : EReal) := by
    simp only [Ideal.exp_coe, ← EReal.coe_mul]
    rw [← coe_sum, ← coe_sum, Ideal.div_coe hE.ne', ← EReal.coe_mul]
  rw [hL, hR]
  congr 1
  -- the real identity: the common factor exp (-m) cancels
  have hsum : ∑ j : Fin n, Real.exp (s' j - m) = (∑ j : Fin n, Real.exp (s' j)) / Real.exp m := by
    rw [Finset.sum_div]
    exact Finset.sum_congr rfl fun j _ => Real.exp_sub _ _
  rw [hsum, Finset.sum_mul]
  refine Finset.sum_congr rfl fun k _ => ?_
  rw [Real.exp_sub]
  have hm : Real.exp m ≠ 0 := (Real.exp_pos m).ne'
  have hE' : (∑ j : Fin n, Real.exp (s' j)) ≠ 0 := hE.ne'
  field_simp

end Cert.Attn

end
-- ==== Proof.RefValue.lean ====
/-
  The reference program's result, read one operation at a time, is the attention function `G` of the arguments
  when every float argument holds real numbers.

  The reference computes the three projections by whole-array contractions, the scores by a batched contraction
  divided by sqrt 256 (which is the product with 1/16), masks them with the same fill value, and then a softmax
  that first subtracts each row's maximum: on real scores that shift changes no weight, and the normalised
  weights' average of the value rows is the quotient `G` states.
-/
import proofs.«409204_j50216757625374_3_alg».proof.Proof.Gen.ReferenceIdeal.Read
import proofs.«409204_j50216757625374_3_alg».proof.Proof.Spec
import proofs.«409204_j50216757625374_3_alg».proof.Proof.Reals

noncomputable section

open scoped BigOperators

namespace Cert.Attn

open Idealize.ShloMosaic Idealize.ShloMosaic.ValueIdx Cert.ReferenceIdeal

/-- A projection stage of the reference at (b, r, a). -/
theorem ref_q (x0 : (⟨S8x2048x256, .f32⟩ : BufTy).Contents (Elt Ideal)) (x2 : (⟨S256x256, .f32⟩ : BufTy).Contents (Elt Ideal))
    (x3 : (⟨S256, .f32⟩ : BufTy).Contents (Elt Ideal)) (b : Fin 8) (r : Fin 2048) (a : Fin 256) :
    Read.val_main_v3 (F := Ideal) x0 x2 x3 (ix3 b r a) = proj x0 x2 x3 b r a := by
  rw [Read.val_main_v3_apply, Read.val_main_v0_apply, Read.val_main_v2_apply, Read.val_main_v1_apply]
  have e1 : ∀ k : Fin 256, Read.lidx_main_v0 (ix3 b r a) k = ix3 b r k := fun k =>
    funext fun d => Fin.ext (by match d with | ⟨0, _⟩ => rfl | ⟨1, _⟩ => rfl | ⟨2, _⟩ => rfl)
  have e2 : ∀ k : Fin 256, Read.ridx_main_v0 (ix3 b r a) k = ix2 k a := fun k =>
    funext fun d => Fin.ext (by match d with | ⟨0, _⟩ => rfl | ⟨1, _⟩ => rfl)
  have e3 : Read.idx_main_v1 (Read.idx_main_v2 (ix3 b r a)) = ix1 a :=
    funext fun d => Fin.ext (by match d with | ⟨0, _⟩ => rfl)
  rw [e3]
  simp only [e1, e2]
  rfl

theorem ref_k (x0 : (⟨S8x2048x256, .f32⟩ : BufTy).Contents (Elt Ideal)) (x4 : (⟨S256x256, .f32⟩ : BufTy).Contents (Elt Ideal))
    (x5 : (⟨S256, .f32⟩ : BufTy).Contents (Elt Ideal)) (b : Fin 8) (r : Fin 2048) (a : Fin 256) :
    Read.val_main_v7 (F := Ideal) x0 x4 x5 (ix3 b r a) = proj x0 x4 x5 b r a := ref_q x0 x4 x5 b r a

theorem ref_v (x0 : (⟨S8x2048x256, .f32⟩ : BufTy).Contents (Elt Ideal)) (x6 : (⟨S256x256, .f32⟩ : BufTy).Contents (Elt Ideal))
    (x7 : (⟨S256, .f32⟩ : BufTy).Contents (Elt Ideal)) (b : Fin 8) (r : Fin 2048) (a : Fin 256) :
    Read.val_main_v11 (F := Ideal) x0 x6 x7 (ix3 b r a) = proj x0 x6 x7 b r a := ref_q x0 x6 x7 b r a

/-- The masked scaled score stage of the reference at (b, r, k). -/
theorem ref_score (x0 : (⟨S8x2048x256, .f32⟩ : BufTy).Contents (Elt Ideal)) (x1 : (⟨S8x2048x2048, .i32⟩ : BufTy).Contents (Elt Ideal))
    (x2 : (⟨S256x256, .f32⟩ : BufTy).Contents (Elt Ideal)) (x3 : (⟨S256, .f32⟩ : BufTy).Contents (Elt Ideal))
    (x4 : (⟨S256x256, .f32⟩ : BufTy).Contents (Elt Ideal)) (x5 : (⟨S256, .f32⟩ : BufTy).Contents (Elt Ideal))
    (b : Fin 8) (r : Fin 2048) (k : Fin 2048) :
    Read.val_main_v18 (F := Ideal) x0 x1 x2 x3 x4 x5 (ix3 b r k)
      = scoreRow (proj x0 x2 x3 b r) (proj x0 x4 x5 b) (fun k' => x1 (ix3 b r k')) k := by
  rw [Read.val_main_v18_apply, Read.val_main_v17_apply, Read.val_main_v16_apply, Read.val_main_c_apply,
    Read.val_main_call0_v0_apply, Read.val_main_cst_0_apply, Read.val_main_v15_apply, Read.val_main_v14_apply,
    Read.val_main_v13_apply, Read.val_main_cst_apply, Read.val_main_v12_apply]
  have e1 : ∀ a : Fin 256, Read.lidx_main_v12 (ix3 b r k) a = ix3 b r a := fun a =>
    funext fun d => Fin.ext (by match d with | ⟨0, _⟩ => rfl | ⟨1, _⟩ => rfl | ⟨2, _⟩ => rfl)
  have e2 : ∀ a : Fin 256, Read.ridx_main_v12 (ix3 b r k) a = ix3 b k a := fun a =>
    funext fun d => Fin.ext (by match d with | ⟨0, _⟩ => rfl | ⟨1, _⟩ => rfl | ⟨2, _⟩ => rfl)
  simp only [e1, e2, ref_q, ref_k]
  rw [Ideal.hostDivf_def, Ideal.hostUnary_sqrt_def, Ideal.ofBits_def, Ideal.ofBits_def, div_sqrt_256]
  rfl

/-- A projection of real data is real. -/
theorem proj_real (x : SX.Idx → EReal) (W : SW.Idx → EReal) (bias : SB.Idx → EReal) (hx : ∀ i, IsReal (x i))
    (hW : ∀ i, IsReal (W i)) (hb : ∀ i, IsReal (bias i)) (b : Fin 8) (r : Fin 2048) (a : Fin 256) :
    IsReal (proj x W bias b r a) := by
  unfold proj projRow
  exact IsReal.add (IsReal.sum _ _ fun e _ => IsReal.mul (hx _) (hW _)) (hb _)

/-- A masked scaled score of real rows is real: the fill value and the scale are real numbers. -/
theorem scoreRow_real (q : Fin 256 → EReal) (K : Fin 2048 → Fin 256 → EReal) (msk : Fin 2048 → BitVec 32)
    (hq : ∀ a, IsReal (q a)) (hK : ∀ k a, IsReal (K k a)) (k : Fin 2048) : IsReal (scoreRow q K msk k) := by
  unfold scoreRow
  refine IsReal.select _ ?_ (IsReal.mul (IsReal.sum _ _ fun a _ => IsReal.mul (hq a) (hK k a)) ?_)
  · show IsReal (Ideal.ofBits .f32 0xCE6E6B28#32)
    rw [ofBits_fill]; exact IsReal.coe _
  · show IsReal (Ideal.ofBits .f32 0x3D800000#32)
    rw [ofBits_scale]; exact IsReal.coe _

/-- The row maximum the reference subtracts is a real number: it is the larger of the bottom and the fold of the maximum,
    from the bottom, over the 2048 masked scores of the row, which are real. -/
theorem ref_max_real (x0 : (⟨S8x2048x256, .f32⟩ : BufTy).Contents (Elt Ideal)) (x1 : (⟨S8x2048x2048, .i32⟩ : BufTy).Contents (Elt Ideal))
    (x2 : (⟨S256x256, .f32⟩ : BufTy).Contents (Elt Ideal)) (x3 : (⟨S256, .f32⟩ : BufTy).Contents (Elt Ideal))
    (x4 : (⟨S256x256, .f32⟩ : BufTy).Contents (Elt Ideal)) (x5 : (⟨S256, .f32⟩ : BufTy).Contents (Elt Ideal))
    (hs : ∀ (b : Fin 8) (r k : Fin 2048), IsReal (Read.val_main_v18 (F := Ideal) x0 x1 x2 x3 x4 x5 (ix3 b r k)))
    (b : Fin 8) (r : Fin 2048) :
    IsReal (Read.val_main_v21 (F := Ideal) x0 x1 x2 x3 x4 x5 (ix2 b r)) := by
  rw [Read.val_main_v21_apply, Read.val_main_v20_apply, Read.val_main_cst_2_apply]
  unfold Read.val_main_v19
  generalize Read.val_main_v18 (F := Ideal) x0 x1 x2 x3 x4 x5 = y at hs ⊢
  have hR : S8x2048x2048.Reduces [2] S8x2048 := by decide
  have hfold := Host.reduce_eq_fold_single (FloatOps.maximumf (F := Ideal) (φ := .f32)) y (Read.val_main_cst_1 (F := Ideal))
    Gen.reducesTo_S8x2048x2048_S8x2048_d2 hR Gen.h_S_ (ix2 b r)
  rw [hfold, Read.val_main_cst_1_apply, Ideal.ofBits_def, ofBits_neg_inf]
  have hreal : IsReal ((Finset.univ : Finset (Fin (S8x2048x2048.size 2))).fold max (⊥ : EReal) (y ∘ hR.lift (ix2 b r))) := by
    refine IsReal.fold_max _ ⟨⟨0, by decide⟩, Finset.mem_univ _⟩ _ fun k _ => ?_
    have e : hR.lift (ix2 b r) k = ix3 b r ⟨k.val, k.isLt⟩ :=
      funext fun d => Fin.ext (by match d with | ⟨0, _⟩ => rfl | ⟨1, _⟩ => rfl | ⟨2, _⟩ => rfl)
    show IsReal (y (hR.lift (ix2 b r) k))
    rw [e]
    exact hs b r _
  show IsReal (max (⊥ : EReal) _)
  rw [max_bot_left]
  exact hreal

/-- The exponential stage at (b, r, k): the exponential of the masked score less the row's maximum. -/
theorem ref_exp (x0 : (⟨S8x2048x256, .f32⟩ : BufTy).Contents (Elt Ideal)) (x1 : (⟨S8x2048x2048, .i32⟩ : BufTy).Contents (Elt Ideal))
    (x2 : (⟨S256x256, .f32⟩ : BufTy).Contents (Elt Ideal)) (x3 : (⟨S256, .f32⟩ : BufTy).Contents (Elt Ideal))
    (x4 : (⟨S256x256, .f32⟩ : BufTy).Contents (Elt Ideal)) (x5 : (⟨S256, .f32⟩ : BufTy).Contents (Elt Ideal))
    (b : Fin 8) (r : Fin 2048) (k : Fin 2048) :
    Read.val_main_v25 (F := Ideal) x0 x1 x2 x3 x4 x5 (ix3 b r k)
      = Ideal.exp (scoreRow (proj x0 x2 x3 b r) (proj x0 x4 x5 b) (fun k' => x1 (ix3 b r k')) k
          - Read.val_main_v21 (F := Ideal) x0 x1 x2 x3 x4 x5 (ix2 b r)) := by
  have e : Read.idx_main_v22 (Read.idx_main_v23 (ix3 b r k)) = ix2 b r :=
    funext fun d => Fin.ext (by match d with | ⟨0, _⟩ => rfl | ⟨1, _⟩ => rfl)
  rw [Read.val_main_v25_apply, Read.val_main_v24_apply, Read.val_main_v23_apply, Read.val_main_v22_apply, e, ref_score]
  rfl

/-- The normalised weight at (b, r, k): that exponential over the row's sum of them, the sum started from zero. -/
theorem ref_weight (x0 : (⟨S8x2048x256, .f32⟩ : BufTy).Contents (Elt Ideal)) (x1 : (⟨S8x2048x2048, .i32⟩ : BufTy).Contents (Elt Ideal))
    (x2 : (⟨S256x256, .f32⟩ : BufTy).Contents (Elt Ideal)) (x3 : (⟨S256, .f32⟩ : BufTy).Contents (Elt Ideal))
    (x4 : (⟨S256x256, .f32⟩ : BufTy).Contents (Elt Ideal)) (x5 : (⟨S256, .f32⟩ : BufTy).Contents (Elt Ideal))
    (b : Fin 8) (r : Fin 2048) (k : Fin 2048) :
    Read.val_main_v29 (F := Ideal) x0 x1 x2 x3 x4 x5 (ix3 b r k)
      = Ideal.div
          (Ideal.exp (scoreRow (proj x0 x2 x3 b r) (proj x0 x4 x5 b) (fun k' => x1 (ix3 b r k')) k
            - Read.val_main_v21 (F := Ideal) x0 x1 x2 x3 x4 x5 (ix2 b r)))
          (0 + ∑ j : Fin 2048,
            Ideal.exp (scoreRow (proj x0 x2 x3 b r) (proj x0 x4 x5 b) (fun k' => x1 (ix3 b r k')) j
              - Read.val_main_v21 (F := Ideal) x0 x1 x2 x3 x4 x5 (ix2 b r))) := by
  have e : Read.idx_main_v27 (Read.idx_main_v28 (ix3 b r k)) = ix2 b r :=
    funext fun d => Fin.ext (by match d with | ⟨0, _⟩ => rfl | ⟨1, _⟩ => rfl)
  have e2 : ∀ j : Fin 2048, Read.idx_main_v26 (ix2 b r) j = ix3 b r j := fun j =>
    funext fun d => Fin.ext (by match d with | ⟨0, _⟩ => rfl | ⟨1, _⟩ => rfl | ⟨2, _⟩ => rfl)
  rw [Read.val_main_v29_apply, Read.val_main_v28_apply, Read.val_main_v27_apply, e, Read.val_main_v26_apply,
    Read.val_main_cst_3_apply]
  simp only [e2, ref_exp]
  rw [Ideal.hostDivf_def, Ideal.ofBits_def, Ideal.ofBits_zero_f32]

/-- The reference's last stage is `G` of the eight arguments, when the float ones hold real numbers. -/
theorem ref_eq_G (x0 : (⟨S8x2048x256, .f32⟩ : BufTy).Contents (Elt Ideal)) (x1 : (⟨S8x2048x2048, .i32⟩ : BufTy).Contents (Elt Ideal))
    (x2 : (⟨S256x256, .f32⟩ : BufTy).Contents (Elt Ideal)) (x3 : (⟨S256, .f32⟩ : BufTy).Contents (Elt Ideal))
    (x4 : (⟨S256x256, .f32⟩ : BufTy).Contents (Elt Ideal)) (x5 : (⟨S256, .f32⟩ : BufTy).Contents (Elt Ideal))
    (x6 : (⟨S256x256, .f32⟩ : BufTy).Contents (Elt Ideal)) (x7 : (⟨S256, .f32⟩ : BufTy).Contents (Elt Ideal))
    (h0 : ∀ i, IsReal (x0 i)) (h2 : ∀ i, IsReal (x2 i)) (h3 : ∀ i, IsReal (x3 i)) (h4 : ∀ i, IsReal (x4 i))
    (h5 : ∀ i, IsReal (x5 i)) (h6 : ∀ i, IsReal (x6 i)) (h7 : ∀ i, IsReal (x7 i)) :
    Cert.ReferenceIdeal.Read.val_main_v30 (F := Ideal) x0 x1 x2 x3 x4 x5 x6 x7 = G x0 x1 x2 x3 x4 x5 x6 x7 := by
  funext i
  obtain ⟨b, r, a, rfl⟩ : ∃ (b : Fin 8) (r : Fin 2048) (a : Fin 256), i = ix3 b r a := ⟨i 0, i 1, i 2, eq_ix3 i⟩
  have el : ∀ k : Fin 2048, Read.lidx_main_v30 (ix3 b r a) k = ix3 b r k := fun k =>
    funext fun d => Fin.ext (by match d with | ⟨0, _⟩ => rfl | ⟨1, _⟩ => rfl | ⟨2, _⟩ => rfl)
  have er : ∀ k : Fin 2048, Read.ridx_main_v30 (ix3 b r a) k = ix3 b k a := fun k =>
    funext fun d => Fin.ext (by match d with | ⟨0, _⟩ => rfl | ⟨1, _⟩ => rfl | ⟨2, _⟩ => rfl)
  rw [G_ix3, Read.val_main_v30_apply]
  simp only [el, er, ref_v, ref_weight]
  -- the masked scores of the row, the value column and the row's maximum are real numbers
  have hs : ∀ k : Fin 2048, IsReal (scoreRow (proj x0 x2 x3 b r) (proj x0 x4 x5 b) (fun k' => x1 (ix3 b r k')) k) := fun k =>
    scoreRow_real _ _ _ (fun a' => proj_real x0 x2 x3 h0 h2 h3 b r a') (fun k' a' => proj_real x0 x4 x5 h0 h4 h5 b k' a') k
  have hv : ∀ k : Fin 2048, IsReal (proj x0 x6 x7 b k a) := fun k => proj_real x0 x6 x7 h0 h6 h7 b k a
  have hM : IsReal (Read.val_main_v21 (F := Ideal) x0 x1 x2 x3 x4 x5 (ix2 b r)) :=
    ref_max_real x0 x1 x2 x3 x4 x5 (fun b' r' k' => by
      rw [ref_score]
      exact scoreRow_real _ _ _ (fun a' => proj_real x0 x2 x3 h0 h2 h3 b' r' a')
        (fun k'' a' => proj_real x0 x4 x5 h0 h4 h5 b' k'' a') k') b r
  exact softmax_shift (n := 2048) (by decide) _ (fun k => proj x0 x6 x7 b k a) hs hv _ hM

end Cert.Attn

end
-- ==== Proof.Finite.lean ====
/-
  From the precondition "every float input is finite" to "every entry of every float input is a real number".

  The precondition is the conjunction, over the seven float arguments, of "all entries satisfy |x| < +infinity";
  an extended real whose absolute value is below the top is neither infinity, so it is a real number.
-/
import proofs.«409204_j50216757625374_3_alg».proof.Pre_finite_inputs
import proofs.«409204_j50216757625374_3_alg».proof.Proof.Reals
import Idealize.ShloMosaic.Lib.ReduceAll
import Idealize.ShloMosaic.Lib.ValueIdx

noncomputable section

namespace Cert.Attn

open Idealize.ShloMosaic

/-- The word 0x7F800000 (sign 0, exponent all ones, fraction 0) is plus infinity. -/
theorem finite_word_top : Ideal.ofBits .f32 0x7F800000#32 = (⊤ : EReal) := by
  simp [Ideal.ofBits, Ideal.ieee]

/-- An extended real whose absolute value max(a, -a) is strictly below the top is a real number:
    at the bottom the absolute value is max(⊥, ⊤) = ⊤, at the top it is max(⊤, ⊥) = ⊤, and neither is below ⊤. -/
theorem finite_isReal_of_abs_lt_top (a : EReal) (h : max a (-a) < (⊤ : EReal)) : IsReal a := by
  induction a using EReal.rec with
  | bot => simp at h
  | coe r => exact IsReal.coe r
  | top => simp at h

/-- An entry of a vector, of any shape, whose reduction by "and" over all axes of the entrywise test
    "|x| < +infinity" is true is a real number: the reduction being 1 makes the test 1 at every index, the test
    at an index is the strict inequality max(x, -x) < ⊤ of extended reals, and that excludes both infinities. -/
theorem finite_real_of_all_lt_inf {s : Shape} {axes : List (Fin s.rank)} (v : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (init : IVec Cert.Pre_finite_inputs.S_ 1)
    (e : Host.reduce IntOp.andi
        (cmpf .olt (Host.absf v)
          (broadcastInDim s ![] hb (constant (F := Ideal) Cert.Pre_finite_inputs.S_ .f32 0x7F800000#32)))
        init hr hu ValueIdx.ix0 = 1#1) (i : s.Idx) : IsReal (v i) := by
  -- the result shape has rank 0, so it has one index only
  haveI : Subsingleton Cert.Pre_finite_inputs.S_.Idx := ⟨fun a b => funext fun d => d.elim0⟩
  have h1 := Host.reduce_andi_all _ init hr hu ValueIdx.ix0 e i
  simp only [cmpf, Host.absf, broadcastInDim, constant, Ideal.hostAbsf_def, Ideal.absf_def, Ideal.cmpf_def,
    Ideal.cmp] at h1
  have h2 : max (v i) (-v i) < Ideal.ofBits .f32 0x7F800000#32 := by
    by_contra hn
    have hd : decide (max (v i) (-v i) < Ideal.ofBits .f32 0x7F800000#32) = false := decide_eq_false hn
    rw [show (FloatOps.ofBits FTy.f32 0x7F800000#32 : Ideal .f32) = Ideal.ofBits .f32 0x7F800000#32 from rfl,
      hd] at h1
    exact absurd h1 (by decide)
  rw [finite_word_top] at h2
  exact finite_isReal_of_abs_lt_top _ h2

/-- If the precondition evaluates to true on the arguments, each float argument holds real numbers only. -/
theorem real_of_finite [Cert.Pre_finite_inputs.Facts]
    (x : FVec Ideal Cert.Pre_finite_inputs.S8x2048x256 .f32) (mask : IVec Cert.Pre_finite_inputs.S8x2048x2048 32)
    (Wq : FVec Ideal Cert.Pre_finite_inputs.S256x256 .f32) (bq : FVec Ideal Cert.Pre_finite_inputs.S256 .f32)
    (Wk : FVec Ideal Cert.Pre_finite_inputs.S256x256 .f32) (bk : FVec Ideal Cert.Pre_finite_inputs.S256 .f32)
    (Wv : FVec Ideal Cert.Pre_finite_inputs.S256x256 .f32) (bv : FVec Ideal Cert.Pre_finite_inputs.S256 .f32)
    (h : Cert.Pre_finite_inputs.fn (F := Ideal) x mask Wq bq Wk bk Wv bv = fun _ => 1#1) :
    (∀ i, IsReal (x i)) ∧ (∀ i, IsReal (Wq i)) ∧ (∀ i, IsReal (bq i)) ∧ (∀ i, IsReal (Wk i)) ∧ (∀ i, IsReal (bk i))
      ∧ (∀ i, IsReal (Wv i)) ∧ (∀ i, IsReal (bv i)) := by
  -- the value of the precondition at its one index: a seven-fold conjunction of all-reductions
  have h0 := congrFun h ValueIdx.ix0
  dsimp only [Cert.Pre_finite_inputs.fn, Cert.Pre_finite_inputs.fn_part1, andi] at h0
  -- a conjunction of words is 1 exactly when each word is 1
  obtain ⟨h0, e7⟩ := IntOp.andi_eq_one.1 h0
  obtain ⟨h0, e6⟩ := IntOp.andi_eq_one.1 h0
  obtain ⟨h0, e5⟩ := IntOp.andi_eq_one.1 h0
  obtain ⟨h0, e4⟩ := IntOp.andi_eq_one.1 h0
  obtain ⟨h0, e3⟩ := IntOp.andi_eq_one.1 h0
  obtain ⟨e1, e2⟩ := IntOp.andi_eq_one.1 h0
  exact ⟨finite_real_of_all_lt_inf x _ _ _ _ e1, finite_real_of_all_lt_inf Wq _ _ _ _ e2,
    finite_real_of_all_lt_inf bq _ _ _ _ e3, finite_real_of_all_lt_inf Wk _ _ _ _ e4,
    finite_real_of_all_lt_inf bk _ _ _ _ e5, finite_real_of_all_lt_inf Wv _ _ _ _ e6,
    finite_real_of_all_lt_inf bv _ _ _ _ e7⟩

end Cert.Attn

end
-- ==== Proof.lean ====
/-
  The certificate of a fused attention kernel against its jnp reference, over the extended reals.

  The kernel computes, per batch and query tile, q = x Wq + bq for the tile's rows, uses k = x Wk + bk and
  v = x Wv + bv of the whole batch (computed once per batch into scratch), scores q kᵀ / 16 with the fill value -1e9
  where the mask is zero, and returns (sum_k exp s_k v_k) / (sum_k exp s_k): a softmax without subtracting the row
  maximum. The reference computes the same projections and scores (dividing by sqrt 256), and a softmax that subtracts
  the row maximum before the exponential and normalises the weights before the value contraction.

  Both are the one function `Cert.Attn.G` of the arguments (Proof/Spec.lean):
    * the kernel by reading what each grid point's body leaves in the output tile and in the carried scratch
      (Proof/Pieces.lean, Proof/Tiles.lean), each block as a part of the arrays (Proof/Blocks.lean, Proof/Biases.lean),
      the body's arithmetic at an entry (Proof/KPay.lean) and the tiling of the result by the 32 output blocks
      (Proof/Cover.lean, Proof/KValue.lean) — with no condition on the inputs;
    * the reference by reading its operations one at a time (Proof/RefValue.lean), where finiteness of the inputs is
      used: on real scores the shift by the row maximum cancels, exp (s - M) / sum exp (s - M) = exp s / sum exp s,
      and the division by the positive real sum of weights moves inside the weighted sum (Proof/Reals.lean). The
      inputs are real numbers by the precondition (Proof/Finite.lean).
  The kernel's idealization rewrote nothing, so `preserves` is trivial; the frames are the generated ones.
-/
import proofs.«409204_j50216757625374_3_alg».proof.Defs
import proofs.«409204_j50216757625374_3_alg».proof.Proof.Gen.Kernel
import proofs.«409204_j50216757625374_3_alg».proof.Proof.Gen.Kernel.Skeleton
import proofs.«409204_j50216757625374_3_alg».proof.Proof.Gen.Kernel.Launch
import proofs.«409204_j50216757625374_3_alg».proof.Proof.Gen.Kernel.Points
import proofs.«409204_j50216757625374_3_alg».proof.Proof.Gen.Kernel.Frame
import proofs.«409204_j50216757625374_3_alg».proof.Proof.Gen.KernelIdeal
import proofs.«409204_j50216757625374_3_alg».proof.Proof.Gen.KernelIdeal.Skeleton
import proofs.«409204_j50216757625374_3_alg».proof.Proof.Gen.KernelIdeal.Launch
import proofs.«409204_j50216757625374_3_alg».proof.Proof.Gen.KernelIdeal.Points
import proofs.«409204_j50216757625374_3_alg».proof.Proof.Gen.KernelIdeal.Frame
import proofs.«409204_j50216757625374_3_alg».proof.Proof.Gen.ReferenceIdeal
import proofs.«409204_j50216757625374_3_alg».proof.Proof.Gen.Pre_finite_inputs
import proofs.«409204_j50216757625374_3_alg».proof.Proof.Gen.KernelIdeal.Value
import proofs.«409204_j50216757625374_3_alg».proof.Proof.Gen.ReferenceIdeal.Run
import proofs.«409204_j50216757625374_3_alg».proof.Proof.Gen.ReferenceIdeal.Read
import proofs.«409204_j50216757625374_3_alg».proof.Proof.KValue
import proofs.«409204_j50216757625374_3_alg».proof.Proof.RefValue
import proofs.«409204_j50216757625374_3_alg».proof.Proof.Finite
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel call: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with the specification of the (agreeing) arguments in their result array. -/
theorem algebraic : Cert.algebraic_KernelIdeal_ReferenceIdeal := by
  intro m ρ m' ρ' hpre hagree
  refine ⟨fun c => Cert.Attn.K.Gm m c, Cert.Attn.K.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v30_eq]
  obtain ⟨a0, a1, a2, a3, a4, a5, a6, a7⟩ := hagree c
  rw [a0, a1, a2, a3, a4, a5, a6, a7]
  obtain ⟨r0, r2, r3, r4, r5, r6, r7⟩ := Cert.Attn.real_of_finite _ _ _ _ _ _ _ _ (hpre c)
  exact Cert.Attn.ref_eq_G _ _ _ _ _ _ _ _ r0 r2 r3 r4 r5 r6 r7

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
